-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : IVec S8192 32) (main_arg1 : IVec S8192 32) (main_arg2 : IVec S8192 32) (main_arg3 : FVec F S100000x64 .f32) (main_arg4 : FVec F S100000x64 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S8192 : Shape := ⟨1, ![8192]⟩
abbrev S100000x64 : Shape := ⟨2, ![100000, 64]⟩
abbrev S_ : Shape := ⟨0, ![]⟩
abbrev S8192x1 : Shape := ⟨2, ![8192, 1]⟩
abbrev S8192x64 : Shape := ⟨2, ![8192, 64]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S512x64 : Shape := ⟨2, ![512, 64]⟩
abbrev S64x512 : Shape := ⟨2, ![64, 512]⟩
abbrev S512x512 : Shape := ⟨2, ![512, 512]⟩
abbrev S1x512x512 : Shape := ⟨3, ![1, 512, 512]⟩
abbrev S100000 : Shape := ⟨1, ![100000]⟩
abbrev S2 : Shape := ⟨1, ![2]⟩

abbrev nBuf : Space → Nat
  | .hbm => 86
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .i32⟩
  | .hbm, ⟨3, _⟩ => ⟨S100000x64, .f32⟩
  | .hbm, ⟨4, _⟩ => ⟨S100000x64, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x64, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S1x1, .f32⟩
  | .hbm, ⟨26, _⟩ => ⟨S1x1, .f32⟩
  | .hbm, ⟨27, _⟩ => ⟨S_, .i32⟩
  | .hbm, ⟨28, _⟩ => ⟨S100000, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S_, .i32⟩
  | .hbm, ⟨42, _⟩ => ⟨S8192, .i32⟩
  | .hbm, ⟨43, _⟩ => ⟨S100000, .i32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S100000, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .i32⟩
  | .hbm, ⟨52, _⟩ => ⟨S100000, .i32⟩
  | .hbm, ⟨53, _⟩ => ⟨S_, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S_, .i32⟩
  | .hbm, ⟨66, _⟩ => ⟨S8192, .i32⟩
  | .hbm, ⟨67, _⟩ => ⟨S100000, .i32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S100000, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S2, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1x1, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S1x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_c_11 : Ref sig .tc := ⟨.hbm, 53, rfl⟩
abbrev main_call1_v0 : Ref sig .tc := ⟨.hbm, 54, rfl⟩
abbrev main_call1_v1 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_c_13 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_14 : Ref sig .tc := ⟨.hbm, 65, rfl⟩
abbrev main_v39 : Ref sig .tc := ⟨.hbm, 66, rfl⟩
abbrev main_v40 : Ref sig .tc := ⟨.hbm, 67, rfl⟩
abbrev main_c_15 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_16 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S512x64_p1_0_S64x512 : S512x64.Transposes [1, 0] S64x512
  shapeCasts_S512x512_S1x512x512 : S512x512.ShapeCasts S1x512x512
  reduces_S1x512x512_S1 : S1x512x512.Reduces [1, 2] S1
  bcast_S_S100000 : S_.BroadcastsInDim S100000 (![] : Fin 0 → Fin S100000.rank)
  natLt_1_32 : 1 < 32
  reducesTo_S100000_S_d0 : S100000.ReducesTo [0] S_
  h_S_ : 0 < S_.numel
  shapeCasts_S1x1_S_ : S1x1.ShapeCasts S_
  bcast_S_S1 : S_.BroadcastsInDim S1 (![] : Fin 0 → Fin S1.rank)
  concatenates_S1_S1_S2_d0 : Shape.Concatenates [S1, S1] S2 0
  gather_S100000x64_S8192x1_S8192x64_1_0_n_n_0_1_164_wf : GatherDims.WF S100000x64 S8192x1 S8192x64 [1] [0] [] [0] [] 1 ![1, 64]
  dot_S512x64_S64x512_S512x512_1_0_0_1_n_n_wf : DotDims.WF S512x64 S64x512 S512x512 [1] [0] [0] [1] [] []
  scatter_S100000_S8192x1_S8192_n_0_0_1_wf : ScatterDims.WF S100000 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def scatter_S100000_S8192x1_S8192_n_0_0_1 : ScatterDims S100000 S8192x1 S8192 where
  updateWindowDims := []
  insertedWindowDims := [0]
  scatterDimsToOperandDims := [0]
  indexVectorDim := 1
  wf := scatter_S100000_S8192x1_S8192_n_0_0_1_wf

abbrev win0_0 : Pipeline.Window sig grid0 :=
  Pipeline.Window.ofSpec (Memref.whole main_v6) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192 : Shape := ⟨1, ![8192]⟩
abbrev S100000x64 : Shape := ⟨2, ![100000, 64]⟩
abbrev S_ : Shape := ⟨0, ![]⟩
abbrev S8192x1 : Shape := ⟨2, ![8192, 1]⟩
abbrev S8192x64 : Shape := ⟨2, ![8192, 64]⟩
abbrev S64x8192 : Shape := ⟨2, ![64, 8192]⟩
abbrev S8192x8192 : Shape := ⟨2, ![8192, 8192]⟩
abbrev S100000 : Shape := ⟨1, ![100000]⟩
abbrev S1 : Shape := ⟨1, ![1]⟩
abbrev S2 : Shape := ⟨1, ![2]⟩

abbrev nBuf : Space → Nat
  | .hbm => 130
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S100000x64, .f32⟩
  | 4 => ⟨S100000x64, .f32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192x64, .f32⟩
  | 14 => ⟨S8192x64, .f32⟩
  | 15 => ⟨S_, .f32⟩
  | 16 => ⟨S8192, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x64, .f32⟩
  | 23 => ⟨S8192x64, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x64, .f32⟩
  | 33 => ⟨S8192x64, .f32⟩
  | 34 => ⟨S_, .f32⟩
  | 35 => ⟨S8192, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x64, .f32⟩
  | 42 => ⟨S8192x64, .f32⟩
  | 43 => ⟨S8192x64, .f32⟩
  | 44 => ⟨S_, .f32⟩
  | 45 => ⟨S8192, .f32⟩
  | 46 => ⟨S_, .f32⟩
  | 47 => ⟨S8192, .f32⟩
  | 48 => ⟨S8192, .f32⟩
  | 49 => ⟨S8192, .f32⟩
  | 50 => ⟨S8192, .f32⟩
  | 51 => ⟨S_, .f32⟩
  | 52 => ⟨S8192, .f32⟩
  | 53 => ⟨S8192, .f32⟩
  | 54 => ⟨S8192, .f32⟩
  | 55 => ⟨S8192, .f32⟩
  | 56 => ⟨S8192, .f32⟩
  | 57 => ⟨S_, .f32⟩
  | 58 => ⟨S_, .f32⟩
  | 59 => ⟨S_, .f32⟩
  | 60 => ⟨S_, .f32⟩
  | 61 => ⟨S64x8192, .f32⟩
  | 62 => ⟨S8192x8192, .f32⟩
  | 63 => ⟨S_, .f32⟩
  | 64 => ⟨S8192x8192, .f32⟩
  | 65 => ⟨S8192x8192, .f32⟩
  | 66 => ⟨S8192x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S8192x8192, .f32⟩
  | 73 => ⟨S_, .f32⟩
  | 74 => ⟨S_, .f32⟩
  | 75 => ⟨S_, .i32⟩
  | 76 => ⟨S100000, .i32⟩
  | 77 => ⟨S_, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S_, .i32⟩
  | 90 => ⟨S8192, .i32⟩
  | 91 => ⟨S100000, .i32⟩
  | 92 => ⟨S_, .i32⟩
  | 93 => ⟨S100000, .i32⟩
  | 94 => ⟨S100000, .i1⟩
  | 95 => ⟨S100000, .i32⟩
  | 96 => ⟨S_, .i32⟩
  | 97 => ⟨S_, .i32⟩
  | 98 => ⟨S_, .f32⟩
  | 99 => ⟨S_, .i32⟩
  | 100 => ⟨S100000, .i32⟩
  | 101 => ⟨S_, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S_, .i32⟩
  | 114 => ⟨S8192, .i32⟩
  | 115 => ⟨S100000, .i32⟩
  | 116 => ⟨S_, .i32⟩
  | 117 => ⟨S100000, .i32⟩
  | 118 => ⟨S100000, .i1⟩
  | 119 => ⟨S100000, .i32⟩
  | 120 => ⟨S_, .i32⟩
  | 121 => ⟨S_, .i32⟩
  | 122 => ⟨S_, .f32⟩
  | 123 => ⟨S_, .f32⟩
  | 124 => ⟨S_, .f32⟩
  | 125 => ⟨S_, .f32⟩
  | 126 => ⟨S_, .f32⟩
  | 127 => ⟨S1, .f32⟩
  | _ => ⟨S8192, .i32⟩

abbrev hbmTy0_1 (i : Nat) : BufTy := match i % 128 with
  | 0 => ⟨S1, .f32⟩
  | 1 => ⟨S2, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_c_13 : Ref sig .tc := ⟨.hbm, 77, rfl⟩
abbrev main_call2_v0 : Ref sig .tc := ⟨.hbm, 78, rfl⟩
abbrev main_call2_v1 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_c_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_18 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_v63 : Ref sig .tc := ⟨.hbm, 100, rfl⟩
abbrev main_c_20 : Ref sig .tc := ⟨.hbm, 101, rfl⟩
abbrev main_call3_v0 : Ref sig .tc := ⟨.hbm, 102, rfl⟩
abbrev main_call3_v1 : Ref sig .tc := ⟨.hbm, 103, rfl⟩
abbrev main_v64 : Ref sig .tc := ⟨.hbm, 104, rfl⟩
abbrev main_c_21 : Ref sig .tc := ⟨.hbm, 105, rfl⟩
abbrev main_v65 : Ref sig .tc := ⟨.hbm, 106, rfl⟩
abbrev main_v66 : Ref sig .tc := ⟨.hbm, 107, rfl⟩
abbrev main_c_22 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_23 : Ref sig .tc := ⟨.hbm, 113, rfl⟩
abbrev main_v71 : Ref sig .tc := ⟨.hbm, 114, rfl⟩
abbrev main_v72 : Ref sig .tc := ⟨.hbm, 115, rfl⟩
abbrev main_c_24 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_25 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  reducesTo_S8192_S_d0 : S8192.ReducesTo [0] S_
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  bcast_S_S100000 : S_.BroadcastsInDim S100000 (![] : Fin 0 → Fin S100000.rank)
  natLt_1_32 : 1 < 32
  reducesTo_S100000_S_d0 : S100000.ReducesTo [0] S_
  bcast_S_S1 : S_.BroadcastsInDim S1 (![] : Fin 0 → Fin S1.rank)
  concatenates_S1_S1_S2_d0 : Shape.Concatenates [S1, S1] S2 0
  gather_S100000x64_S8192x1_S8192x64_1_0_n_n_0_1_164_wf : GatherDims.WF S100000x64 S8192x1 S8192x64 [1] [0] [] [0] [] 1 ![1, 64]
  dot_S8192x64_S64x8192_S8192x8192_1_0_0_1_n_n_wf : DotDims.WF S8192x64 S64x8192 S8192x8192 [1] [0] [0] [1] [] []
  scatter_S100000_S8192x1_S8192_n_0_0_1_wf : ScatterDims.WF S100000 S8192x1 S8192 [] [0] [0] 1

variable [Facts₀]

def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def scatter_S100000_S8192x1_S8192_n_0_0_1 : ScatterDims S100000 S8192x1 S8192 where
  updateWindowDims := []
  insertedWindowDims := [0]
  scatterDimsToOperandDims := [0]
  indexVectorDim := 1
  wf := scatter_S100000_S8192x1_S8192_n_0_0_1_wf

class Facts : Prop extends Facts₀ where

variable [Facts]
-- ==== Proof.KTail.lean ====
/-
  The kernel program around its two regions.

  Before the first region two host operations gather the user rows and the item rows; the first region reads those two
  tables and writes the two normalised tables and the first sum; the second region reads the two normalised tables and
  writes the second sum; the host operations after it count the distinct user and item indices and combine the two sums
  into the result's two entries. This module reads the buffer contents at the segment boundaries: the arguments are never
  written, the first region's operands are the two gathers of the arguments, the second region's operands are the first
  region's two normalised tables, and the result is the tail's closed form over the two sums and the two index vectors.
-/
import proofs.«113842_j81071802679459_1_alg».proof.Proof.Gen.KernelIdeal.Frame
import Idealize.ShloMosaic.Lib.StableHlo.Run
import Idealize.ShloMosaic.Lib.Pipeline.Value

set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo

variable {F : FTy → Type} [FloatOps F]

/-! ## The host functions in closed form -/

/-- The row indices a gather uses: a negative index counts from the end of the table. -/
def wrapIdx (a : IVec S8192 32) : IVec S8192x1 32 :=
  broadcastInDim S8192x1 ![0] bcast_S8192_S8192x1_0
    (select (cmpi .slt a (broadcastInDim S8192 ![] bcast_S_S8192 (constantI S_ 32 0#32)))
      (addi a (broadcastInDim S8192 ![] bcast_S_S8192 (constantI S_ 32 100000#32))) a)

/-- The gathered rows of a table. -/
def gatherRows (tbl : FVec F S100000x64 .f32) (a : IVec S8192 32) : FVec F S8192x64 .f32 :=
  Host.gather gather_S100000x64_S8192x1_S8192x64_1_0_n_n_0_1_164 tbl (wrapIdx a)

/-- The index vector clamped below at zero. -/
def clip0 (a : IVec S8192 32) : IVec S8192 32 :=
  maxsi (broadcastInDim S8192 ![] bcast_S_S8192 (id (constantI S_ 32 0#32))) a

/-- The number of distinct values among the clamped indices, as a float: the histogram's positive entries counted. -/
def countDistinct (a : IVec S8192 32) : FVec F S_ .f32 :=
  sitofp .f32 (Host.reduce IntOp.addi
    (extui 32 (cmpi .sgt
      (Host.scatter scatter_S100000_S8192x1_S8192_n_0_0_1 IntOp.addi
        (broadcastInDim S100000 ![] bcast_S_S100000 (constantI S_ 32 0#32))
        (broadcastInDim S8192x1 ![0] bcast_S8192_S8192x1_0
          (select (cmpi .slt (clip0 a) (broadcastInDim S8192 ![] bcast_S_S8192 (constantI S_ 32 0#32)))
            (addi (clip0 a) (broadcastInDim S8192 ![] bcast_S_S8192 (constantI S_ 32 100000#32))) (clip0 a)))
        (broadcastInDim S8192 ![] bcast_S_S8192 (constantI S_ 32 1#32)))
      (broadcastInDim S100000 ![] bcast_S_S100000 (constantI S_ 32 0#32))) natLt_1_32)
    (constantI S_ 32 0#32) reducesTo_S100000_S_d0 h_S_)

/-- The result's two entries from the two sums and the two index vectors: minus the first sum over 8192, and the
    logarithm of the second sum over the product of the two counts. -/
def tail (s1 s2 : FVec F S1x1 .f32) (a0 a1 : IVec S8192 32) : FVec F S2 .f32 :=
  concatenate S2 0
    [⟨S1, broadcastInDim S1 ![] bcast_S_S1
        (Host.negf (Host.divf (shapeCast S_ s1 shapeCasts_S1x1_S_) (constant S_ .f32 0x46000000#32)))⟩,
     ⟨S1, broadcastInDim S1 ![] bcast_S_S1
        (Host.log (Host.divf (shapeCast S_ s2 shapeCasts_S1x1_S_) (mulf (countDistinct (F := F) a0) (countDistinct (F := F) a1))))⟩]
    concatenates_S1_S1_S2_d0

variable (m : (ℓ : Loc nD τ sig) → Buf (Elt F) ℓ) (ρ : Dev nD → PrngReg)

/-! ## The boundary contents -/

/-- No host operation before the regions writes the first index argument. -/
theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- Neither region writes an argument. -/
theorem W3_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_arg0 m ρ c))

theorem W3_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_arg1 m ρ c))

/-- The first region's operands: the gathered user rows and the gathered item rows. -/
theorem V1_u (c : Dev nD) :
    V1 m ρ c main_v6 = gatherRows (m ((c : Thread nD τ).loc main_arg3)) (m ((c : Thread nD τ).loc main_arg0)) := by
  show StableHlo.after hostOps0 (W0 m ρ c) (Proc.devRef .tc main_v6) = _
  after_results
  rfl

theorem V1_p (c : Dev nD) :
    V1 m ρ c main_v13 = gatherRows (m ((c : Thread nD τ).loc main_arg4)) (m ((c : Thread nD τ).loc main_arg1)) := by
  show StableHlo.after hostOps0 (W0 m ρ c) (Proc.devRef .tc main_v13) = _
  after_results
  rfl

/-- The second region's operands are the first region's two normalised tables. -/
theorem V2_un (c : Dev nD) : V2 m ρ c main_v14_0 = (dat0 (V1 m ρ) c).arrAt 2 cfg0.N := W2_arr m ρ c 2

theorem V2_pn (c : Dev nD) : V2 m ρ c main_v14_1 = (dat0 (V1 m ρ) c).arrAt 3 cfg0.N := W2_arr m ρ c 3

/-- After both regions the first sum is what the first region left (the second region does not touch it), the second sum
    what the second region left. -/
theorem W3_up (c : Dev nD) : W3 m ρ c (Proc.devRef .tc main_v14_2) = (dat0 (V1 m ρ) c).arrAt 4 cfg0.N :=
  (W3_of_ne m ρ c main_v14_2 (by decide)).trans (W2_arr m ρ c 4)

theorem W3_dn (c : Dev nD) : W3 m ρ c (Proc.devRef .tc main_v15) = (dat1 (V2 m ρ) c).arrAt 2 cfg1.N := W3_arr m ρ c 2

/-- The result buffer after the host tail: the tail's closed form over the two sums and the two index arguments. -/
theorem W8_result (c : Dev nD) :
    W8 m ρ c (Proc.devRef .tc main_v55)
      = tail (W3 m ρ c (Proc.devRef .tc main_v14_2)) (W3 m ρ c (Proc.devRef .tc main_v15))
          (m ((c : Thread nD τ).loc main_arg0)) (m ((c : Thread nD τ).loc main_arg1)) := by
  show StableHlo.after hostOps2_4 (StableHlo.after hostOps2_3 (StableHlo.after hostOps2_2 (StableHlo.after hostOps2_1
    (StableHlo.after hostOps2 (W3 m ρ c))))) (Proc.devRef .tc main_v55) = _
  unfold tail
  -- the last operation joins the two entries; each entry is read on its own
  simp only [hostOps2_4, after_cons, after_nil]
  rw [binary_result]
  refine congrArg₂ (fun a b => concatenate S2 0 [⟨S1, a⟩, ⟨S1, b⟩] concatenates_S1_S1_S2_d0) ?_ ?_
  · after_results_simp
    rfl
  · after_results_simp
    simp only [W3_arg0 m ρ c, W3_arg1 m ρ c]
    rfl

end Cert.KernelIdeal.KTail

end
-- ==== Proof.Pieces0.lean ====
/-
  The first kernel's body, case by case, read back as values.

  At a grid point the body loads the user block `x0` and the item block `x1`, stores each block divided row by row by
  its clamped length into the two normalised outputs, and adds the block's partial sum into the one-element
  accumulator. At the first point the accumulator is first reset to zero and read back, so it ends at zero plus the
  partial sum; at every later point it ends at what the point before left plus the partial sum. Each output's staging
  buffer is covered by the body's stores, so what it holds afterwards is the last store's value.
-/
import proofs.«113842_j81071802679459_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

/-- The two zero offsets of a whole-block rectangle, spelt as the constant function. -/
private theorem hz : (![0, 0] : Fin 2 → Nat) = fun _ => 0 := funext fun a => by fin_cases a <;> rfl

/-- First point: the normalised user block. -/
theorem out0_A_2_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : cond0_0 i)
    (x0 x1 : Vec F S1024x64 .f32) :
    out0_A_2 c i a1 h1 a2 h2 a3 h3 a4 h4 a5 h5 hc x0 x1 = k0_pay3 x0 := by
  unfold out0_A_2
  rw [View.read_writes_eq_canon VO0_2 VO0_2.junk _ (cover0_A_2 c i a1 h1 a2 h2 a3 h3 a4 h4 a5 h5 hc x0 x1)]
  unfold kernelRun0_A
  dsimp only
  sl_unfold_words
  rw [View.canon_unit_zero (S := S1024x64) hz]
  simp only [View.readAt_eq_ld, h1.read_unread, View.ld_unit_zero (S := S1024x64) hz]

/-- First point: the normalised item block. -/
theorem out0_A_3_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : cond0_0 i)
    (x0 x1 : Vec F S1024x64 .f32) :
    out0_A_3 c i a1 h1 a2 h2 a3 h3 a4 h4 a5 h5 hc x0 x1 = k0_pay4 x1 := by
  unfold out0_A_3
  rw [View.read_writes_eq_canon VO0_3 VO0_3.junk _ (cover0_A_3 c i a1 h1 a2 h2 a3 h3 a4 h4 a5 h5 hc x0 x1)]
  unfold kernelRun0_A
  dsimp only
  sl_unfold_words
  rw [View.canon_unit_zero (S := S1024x64) hz]
  simp only [View.readAt_eq_ld, h2.read_unread, View.ld_unit_zero (S := S1024x64) hz]

/-- First point: the accumulator, reset and then increased by the block's partial sum. -/
theorem out0_A_4_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : cond0_0 i)
    (x0 x1 : Vec F S1024x64 .f32) :
    out0_A_4 c i a1 h1 a2 h2 a3 h3 a4 h4 a5 h5 hc x0 x1 = k0_pay2 (k0_pay5 x0 x1) (k0_pay1 (F := F)) := by
  unfold out0_A_4
  rw [View.read_writes_eq_canon VO0_4 VO0_4.junk _ (cover0_A_4 c i a1 h1 a2 h2 a3 h3 a4 h4 a5 h5 hc x0 x1)]
  unfold kernelRun0_A
  dsimp only
  sl_unfold_words
  rw [View.canon_cons_unit_zero (S := S1x1) hz, View.readCov_unit_zero (S := S1x1) a5.view hz]
  simp only [View.readAt_eq_ld, h1.read_unread, h2.read_unread, View.ld_unit_zero (S := S1024x64) hz]

/-- A later point: the normalised user block. -/
theorem out0_B_2_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : ¬cond0_0 i)
    (x0 x1 : Vec F S1024x64 .f32) (xo4 : Vec F S1x1 .f32) :
    out0_B_2 c i a1 h1 a2 h2 a3 h3 a4 h4 a5 h5 hc x0 x1 xo4 = k0_pay3 x0 := by
  unfold out0_B_2
  rw [View.read_writes_eq_canon VO0_2 VO0_2.junk _ (cover0_B_2 c i a1 h1 a2 h2 a3 h3 a4 h4 a5 h5 hc x0 x1 xo4)]
  unfold kernelRun0_B
  dsimp only
  sl_unfold_words
  rw [View.canon_unit_zero (S := S1024x64) hz]
  simp only [View.readAt_eq_ld, h1.read_unread, View.ld_unit_zero (S := S1024x64) hz]

/-- A later point: the normalised item block. -/
theorem out0_B_3_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : ¬cond0_0 i)
    (x0 x1 : Vec F S1024x64 .f32) (xo4 : Vec F S1x1 .f32) :
    out0_B_3 c i a1 h1 a2 h2 a3 h3 a4 h4 a5 h5 hc x0 x1 xo4 = k0_pay4 x1 := by
  unfold out0_B_3
  rw [View.read_writes_eq_canon VO0_3 VO0_3.junk _ (cover0_B_3 c i a1 h1 a2 h2 a3 h3 a4 h4 a5 h5 hc x0 x1 xo4)]
  unfold kernelRun0_B
  dsimp only
  sl_unfold_words
  rw [View.canon_unit_zero (S := S1024x64) hz]
  simp only [View.readAt_eq_ld, h2.read_unread, View.ld_unit_zero (S := S1024x64) hz]

/-- A later point: the accumulator, what the point before left increased by the block's partial sum. -/
theorem out0_B_4_eq (c : Dev nD) (i : grid0.Coords) (a1 : Memref sig .tc .vmem S1024x64 .f32) (h1 : a1.IsWhole) (a2 : Memref sig .tc .vmem S1024x64 .f32) (h2 : a2.IsWhole) (a3 : Memref sig .tc .vmem S1024x64 .f32) (h3 : a3.IsWhole) (a4 : Memref sig .tc .vmem S1024x64 .f32) (h4 : a4.IsWhole) (a5 : Memref sig .tc .vmem S1x1 .f32) (h5 : a5.IsWhole) (hc : ¬cond0_0 i)
    (x0 x1 : Vec F S1024x64 .f32) (xo4 : Vec F S1x1 .f32) :
    out0_B_4 c i a1 h1 a2 h2 a3 h3 a4 h4 a5 h5 hc x0 x1 xo4 = k0_pay2 (k0_pay5 x0 x1) xo4 := by
  unfold out0_B_4
  rw [View.read_writes_eq_canon VO0_4 VO0_4.junk _ (cover0_B_4 c i a1 h1 a2 h2 a3 h3 a4 h4 a5 h5 hc x0 x1 xo4)]
  unfold kernelRun0_B
  dsimp only
  sl_unfold_words
  rw [View.canon_unit_zero (S := S1x1) hz]
  simp only [View.readAt_eq_ld, h1.read_unread, h2.read_unread, h5.read_unread,
    View.ld_unit_zero (S := S1024x64) hz, View.ld_unit_zero (S := S1x1) hz]

end Cert.KernelIdeal.Pieces

end
-- ==== Proof.Spec.lean ====
/-
  What the loss computes, row by row, over the extended reals.

  Both programs take two tables of 8192 rows of 64 numbers (the gathered user rows and the gathered item rows). Each row
  is divided by its Euclidean length, the length clamped below by a small constant. The first result sums, over the rows
  i, a function of the inner product of normalised user row i with normalised item row i; the second sums, over all
  pairs (i, j), a function of the inner product of normalised user row i with normalised item row j. The definitions here
  are those quantities, written over rows `Fin 64 → EReal` so that they read the same on a block of rows and on the
  whole table.
-/
import Idealize.ShloMosaic.PureOps.Ideal
import Idealize.ShloMosaic.Lib.ValueIdx

noncomputable section

namespace KSpec

open Idealize.ShloMosaic Idealize.ShloMosaic.ValueIdx

/-- The lower clamp of a row's length (the binary value nearest 1e-12). -/
def eps : EReal := Ideal.ofBits .f32 0x2B8CBCCC#32

/-- The temperature both exponents are divided by (the binary value nearest 0.2). -/
def tmp : EReal := Ideal.ofBits .f32 0x3E4CCCCD#32

/-- A row divided by its clamped Euclidean length. -/
def nrmRow (x : Fin 64 → EReal) (k : Fin 64) : EReal :=
  Ideal.div (x k) (max (Ideal.sqrt (∑ k', x k' * x k')) eps)

/-- The inner product of two rows. -/
def dotRow (u p : Fin 64 → EReal) : EReal := ∑ k, u k * p k

/-- The summand of the first result, as a function of an inner product `s`: log (e^(s/T) + e^(s²/T)). -/
def hUp (s : EReal) : EReal :=
  Ideal.log (Ideal.exp (Ideal.div s tmp) + Ideal.exp (Ideal.div (s * s) tmp))

/-- The summand of the second result, as a function of an inner product `s`: e^(s/T) + e^(s²/T). -/
def gDn (s : EReal) : EReal :=
  Ideal.exp (Ideal.div s tmp) + Ideal.exp (Ideal.div (s * s) tmp)

/-- The first sum: over the rows, of `hUp` of the inner product of user row i and item row i. -/
def upTotal (u p : Fin 8192 → Fin 64 → EReal) : EReal := ∑ i, hUp (dotRow (u i) (p i))

/-- The second sum: over all pairs of rows, of `gDn` of the inner product of user row i and item row j. -/
def dnTotal (u p : Fin 8192 → Fin 64 → EReal) : EReal := ∑ i, ∑ j, gDn (dotRow (u i) (p j))

/-- An [n, 64] array as its rows. -/
def rows {n : ℕ} (x : (⟨2, ![n, 64]⟩ : Shape).Idx → EReal) : Fin n → Fin 64 → EReal := fun i k => x (ix2 i k)

/-- Every row normalised. -/
def nrm {n : ℕ} (x : Fin n → Fin 64 → EReal) : Fin n → Fin 64 → EReal := fun i => nrmRow (x i)

theorem rows_apply {n : ℕ} (x : (⟨2, ![n, 64]⟩ : Shape).Idx → EReal) (i : Fin n) (k : Fin 64) : rows x i k = x (ix2 i k) := rfl

theorem nrm_apply {n : ℕ} (x : Fin n → Fin 64 → EReal) (i : Fin n) (k : Fin 64) : nrm x i k = nrmRow (x i) k := rfl

end KSpec

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.Pay0.lean ====
/-
  The first kernel's arithmetic at an index, over the extended reals.

  The two stored blocks are the loaded blocks with each row divided by its clamped Euclidean length; the partial sum is,
  over the block's 1024 rows, the sum of log (e^(s/T) + e^(s²/T)) at the inner product s of the two normalised rows;
  the accumulator's new value is its old value plus the partial sum, and the reset value is zero.
-/
import proofs.«113842_j81071802679459_1_alg».proof.Proof.Gen.KernelIdeal.Skeleton
import proofs.«113842_j81071802679459_1_alg».proof.Proof.Spec
import proofs.«113842_j81071802679459_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx

/-- The reset value is zero. -/
theorem pay1_apply (j : S1x1.Idx) : (k0_pay1 (F := Ideal)) j = 0 := by
  unfold k0_pay1
  show Ideal.ofBits .f32 0x00000000#32 = 0
  exact Ideal.ofBits_zero_f32

/-- The accumulator's new value: the old value plus the partial sum. -/
theorem pay2_apply (v38 : FVec Ideal S1x1 .f32) (v42 : Vec Ideal S1x1 .f32) (j : S1x1.Idx) :
    k0_pay2 v38 v42 j = v42 j + v38 j := by
  unfold k0_pay2
  show shapeCast S1x1 v42 shapeCasts_S1x1_S1x1 j + v38 j = v42 j + v38 j
  rw [shapeCast_self]

/-- The sum along row `r` of a block, with the accumulator the zero word. -/
theorem rowSum_apply (v : FVec Ideal S1024x64 .f32) (hφ : FKind.Formats FTy.f32)
    (hacc : (0x00000000#32 : BitVec 32) = 0x00000000#32) (r : Fin 1024) :
    multiReduction .add [1] S1024 v 0x00000000#32 reduces_S1024x64_S1024 hφ hacc (ix1 r) = ∑ k : Fin 64, v (ix2 r k) :=
  RowOps.multiReduction_add_row v 0x00000000#32 reduces_S1024x64_S1024 hφ hacc r

/-- A block with each row divided by its clamped Euclidean length, read at row `r` and column `k`. -/
theorem nrmBlock_apply (x : FVec Ideal S1024x64 .f32) (r : Fin 1024) (k : Fin 64) :
    divf x (broadcastTo S1024x64
        (maximumf
          (sqrt (shapeCast S1024x1
            (multiReduction .add [1] S1024 (mulf x x) 0x00000000#32 reduces_S1024x64_S1024 (.inl rfl) rfl)
            shapeCasts_S1024_S1024x1))
          (broadcast S1024x1 (Scalar.ofBits (F := Ideal) .f32 0x2B8CBCCC#32)))
        broadcasts_S1024x1_S1024x64) (ix2 r k)
      = KSpec.nrmRow (fun k' => x (ix2 r k')) k := by
  rw [divf_apply, RowOps.broadcastTo_a1_ab_apply, maximumf_apply, broadcast_apply]
  show Ideal.div (x (ix2 r k)) (max (Ideal.sqrt (shapeCast S1024x1 _ shapeCasts_S1024_S1024x1 (ix2 r (0 : Fin 1)))) _) = _
  rw [RowOps.shapeCast_a_a1_apply, rowSum_apply]
  rfl

/-- The stored user block: each row divided by its clamped length. -/
theorem pay3_apply (x : Vec Ideal S1024x64 .f32) (r : Fin 1024) (k : Fin 64) :
    k0_pay3 x (ix2 r k) = KSpec.nrmRow (fun k' => x (ix2 r k')) k :=
  (nrmBlock_apply (shapeCast S1024x64 x shapeCasts_S1024x64_S1024x64) r k).trans (by rw [shapeCast_self])

/-- The stored item block: each row divided by its clamped length. -/
theorem pay4_apply (x : Vec Ideal S1024x64 .f32) (r : Fin 1024) (k : Fin 64) :
    k0_pay4 x (ix2 r k) = KSpec.nrmRow (fun k' => x (ix2 r k')) k :=
  (nrmBlock_apply (shapeCast S1024x64 x shapeCasts_S1024x64_S1024x64) r k).trans (by rw [shapeCast_self])

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A column `[n, 1]` viewed as `[1, n, 1]` reads, at `(a, r, c)`, the column's entry `r`. -/
theorem shapeCast_a1_1a1_apply {α : Type} {n : ℕ} (x : (⟨2, ![n, 1]⟩ : Shape).Idx → α)
    (h : (⟨2, ![n, 1]⟩ : Shape).ShapeCasts ⟨3, ![1, n, 1]⟩) (a : Fin 1) (r : Fin n) (c : Fin 1) :
    shapeCast ⟨3, ![1, n, 1]⟩ x h (ix3 a r c) = x (ix2 r (0 : Fin 1)) :=
  shapeCast_apply x h _ _ (by
    have ha : a.val = 0 := by omega
    have hc : c.val = 0 := by omega
    rw [Shape.rowMajor_val_three, Shape.rowMajor_val_two]
    show r.val * 1 + 0 = (a.val * n + r.val) * 1 + c.val
    rw [ha, hc, Nat.zero_mul, Nat.zero_add, Nat.add_zero])

/-- The sum of a column's 1024 entries, taken as the total of its view `[1, 1024, 1]` and spread over the one cell. -/
theorem totalCol_apply (col : FVec Ideal S1024x1 .f32) (j : S1x1.Idx) :
    broadcast S1x1
        (extractAt ![0, 0, 0]
          (shapeCast S1x1x1
            (multiReduction .add [1, 2] S1 (shapeCast S1x1024x1 col shapeCasts_S1024x1_S1x1024x1) 0x00000000#32
              reduces_S1x1024x1_S1 (.inl rfl) rfl)
            shapeCasts_S1_S1x1x1)
          inpos_S1x1x1_p0_0_0) j
      = ∑ r : Fin 1024, col (ix2 r (0 : Fin 1)) := by
  rw [broadcast_apply]
  show multiReduction .add [1, 2] S1 (shapeCast S1x1024x1 col shapeCasts_S1024x1_S1x1024x1) 0x00000000#32
      reduces_S1x1024x1_S1 (.inl rfl) rfl _ = _
  refine (Ideal.multiReduction_add_total _ _ reduces_S1x1024x1_S1 (by decide) _ _ _).trans ?_
  rw [sum_idx3, Fin.sum_univ_one]
  refine Finset.sum_congr rfl fun r _ => ?_
  rw [Fin.sum_univ_one]
  exact shapeCast_a1_1a1_apply col _ 0 r 0

/-- The per-row summand: `hUp` of the row's inner product, kept as a column. -/
theorem upCol_apply (A B : FVec Ideal S1024x64 .f32) (r : Fin 1024) :
    log (addf
        (exp (divf
          (shapeCast S1024x1
            (multiReduction .add [1] S1024 (mulf A B) 0x00000000#32 reduces_S1024x64_S1024 (.inl rfl) rfl)
            shapeCasts_S1024_S1024x1)
          (broadcast S1024x1 (Scalar.ofBits (F := Ideal) .f32 0x3E4CCCCD#32))))
        (exp (divf
          (mulf
            (shapeCast S1024x1
              (multiReduction .add [1] S1024 (mulf A B) 0x00000000#32 reduces_S1024x64_S1024 (.inl rfl) rfl)
              shapeCasts_S1024_S1024x1)
            (shapeCast S1024x1
              (multiReduction .add [1] S1024 (mulf A B) 0x00000000#32 reduces_S1024x64_S1024 (.inl rfl) rfl)
              shapeCasts_S1024_S1024x1))
          (broadcast S1024x1 (Scalar.ofBits (F := Ideal) .f32 0x3E4CCCCD#32))))) (ix2 r (0 : Fin 1))
      = KSpec.hUp (∑ k : Fin 64, A (ix2 r k) * B (ix2 r k)) := by
  have hV : shapeCast S1024x1
      (multiReduction .add [1] S1024 (mulf A B) 0x00000000#32 reduces_S1024x64_S1024 (.inl rfl) rfl)
      shapeCasts_S1024_S1024x1 (ix2 r (0 : Fin 1)) = ∑ k : Fin 64, A (ix2 r k) * B (ix2 r k) := by
    rw [RowOps.shapeCast_a_a1_apply, rowSum_apply]
    rfl
  show Ideal.log
      (Ideal.exp (Ideal.div (shapeCast S1024x1 _ shapeCasts_S1024_S1024x1 (ix2 r (0 : Fin 1))) _)
        + Ideal.exp (Ideal.div
            (shapeCast S1024x1 _ shapeCasts_S1024_S1024x1 (ix2 r (0 : Fin 1))
              * shapeCast S1024x1 _ shapeCasts_S1024_S1024x1 (ix2 r (0 : Fin 1))) _)) = _
  rw [hV]
  rfl

/-- The block's partial sum. -/
theorem pay5_apply (x0 x1 : Vec Ideal S1024x64 .f32) (j : S1x1.Idx) :
    k0_pay5 x0 x1 j
      = ∑ r : Fin 1024, KSpec.hUp (KSpec.dotRow (KSpec.nrmRow fun k => x0 (ix2 r k)) (KSpec.nrmRow fun k => x1 (ix2 r k))) := by
  refine (totalCol_apply _ j).trans ?_
  refine Finset.sum_congr rfl fun r _ => ?_
  refine (upCol_apply (k0_pay3 x0) (k0_pay4 x1) r).trans ?_
  refine congrArg KSpec.hUp ?_
  unfold KSpec.dotRow
  refine Finset.sum_congr rfl fun k _ => ?_
  rw [pay3_apply, pay4_apply]

end Cert.KernelIdeal.Pay

end
-- ==== Proof.LibSumTiles.lean ====
/-
  Sums over a range cut into equal tiles.

  A sum over `T * R` consecutive indices is the sum over the `T` tiles of the sum over the `R` indices inside a
  tile; a double sum over an `(A * R) × (B * C)` rectangle is the sum over the `A * B` tiles (tile `t` being tile row
  `t / B`, tile column `t % B`) of the double sum inside the tile. Index `r` of tile `t` is `r + R * t`
  (`finProdFinEquiv`). Last, a value accumulated point by point — started at `z + p 0`, then `+ p (n + 1)` — is `z`
  plus the sum of the `p`s so far.
-/
import Mathlib.Algebra.BigOperators.Fin
import Mathlib.Algebra.BigOperators.Group.Finset.Basic
import Mathlib.Logic.Equiv.Fin.Basic

namespace SumTiles

open Finset

variable {M : Type*} [AddCommMonoid M]

/-- The index `r` of tile `t`, as a number: `r + R * t`. -/
theorem tile_val {T R : ℕ} (t : Fin T) (r : Fin R) : (finProdFinEquiv (t, r)).val = r.val + R * t.val := rfl

/-- The tile row and the tile column of tile `t` of an `A × B` grid of tiles, as numbers. -/
theorem tile_fst_val {A B : ℕ} (t : Fin (A * B)) : (finProdFinEquiv.symm t).1.val = t.val / B := rfl

theorem tile_snd_val {A B : ℕ} (t : Fin (A * B)) : (finProdFinEquiv.symm t).2.val = t.val % B := rfl

/-- A sum over `T * R` indices, tile by tile. -/
theorem sum_tiles_rows (T R : ℕ) (f : Fin (T * R) → M) :
    ∑ i, f i = ∑ t : Fin T, ∑ r : Fin R, f (finProdFinEquiv (t, r)) := by
  -- re-index by the pair (tile, index in the tile), then split the sum over pairs
  rw [← Equiv.sum_comp finProdFinEquiv f, Fintype.sum_prod_type]

/-- A double sum over an `(A * R) × (B * C)` rectangle, tile by tile. -/
theorem sum_tiles_grid (A B R C : ℕ) (G : Fin (A * R) → Fin (B * C) → M) :
    ∑ i, ∑ j, G i j = ∑ t : Fin (A * B), ∑ a : Fin R, ∑ b : Fin C,
      G (finProdFinEquiv ((finProdFinEquiv.symm t).1, a)) (finProdFinEquiv ((finProdFinEquiv.symm t).2, b)) := by
  calc ∑ i, ∑ j, G i j
      -- cut the rows into tile rows and the columns into tile columns
      = ∑ ta : Fin A, ∑ a : Fin R, ∑ tb : Fin B, ∑ b : Fin C,
          G (finProdFinEquiv (ta, a)) (finProdFinEquiv (tb, b)) := by
        rw [sum_tiles_rows A R (fun i => ∑ j, G i j)]
        refine Finset.sum_congr rfl fun ta _ => Finset.sum_congr rfl fun a _ => ?_
        exact sum_tiles_rows B C (G _)
      -- bring the two tile indices together
    _ = ∑ ta : Fin A, ∑ tb : Fin B, ∑ a : Fin R, ∑ b : Fin C,
          G (finProdFinEquiv (ta, a)) (finProdFinEquiv (tb, b)) := by
        refine Finset.sum_congr rfl fun ta _ => ?_
        exact Finset.sum_comm
      -- the pair (tile row, tile column) as one index
    _ = ∑ x : Fin A × Fin B, ∑ a : Fin R, ∑ b : Fin C,
          G (finProdFinEquiv (x.1, a)) (finProdFinEquiv (x.2, b)) := by
        rw [Fintype.sum_prod_type]
      -- the pair is the tile number `t`, read through the inverse of the pairing
    _ = ∑ t : Fin (A * B), ∑ a : Fin R, ∑ b : Fin C,
          G (finProdFinEquiv ((finProdFinEquiv.symm t).1, a))
            (finProdFinEquiv ((finProdFinEquiv.symm t).2, b)) :=
        (Equiv.sum_comp finProdFinEquiv.symm (fun x : Fin A × Fin B => ∑ a : Fin R, ∑ b : Fin C,
          G (finProdFinEquiv (x.1, a)) (finProdFinEquiv (x.2, b)))).symm

/-- A value accumulated point by point is the start plus the sum so far. -/
theorem chain_eq_sum (z : M) (p acc : ℕ → M) (h0 : acc 0 = z + p 0) (hs : ∀ n, acc (n + 1) = acc n + p (n + 1)) (n : ℕ) :
    acc n = z + ∑ t ∈ range (n + 1), p t := by
  induction n with
  | zero => rw [h0, Nat.zero_add, Finset.sum_range_one]
  | succ k ih => rw [hs k, ih, Finset.sum_range_succ _ (k + 1), add_assoc]

/-- The same with the recurrence known only below a bound `N` (a grid of `N` points). -/
theorem chain_eq_sum_lt (N : ℕ) (z : M) (p acc : ℕ → M) (h0 : acc 0 = z + p 0)
    (hs : ∀ n, n + 1 < N → acc (n + 1) = acc n + p (n + 1)) (n : ℕ) (hn : n < N) :
    acc n = z + ∑ t ∈ range (n + 1), p t := by
  induction n with
  | zero => rw [h0, Nat.zero_add, Finset.sum_range_one]
  | succ k ih => rw [hs k hn, ih (Nat.lt_of_succ_lt hn), Finset.sum_range_succ _ (k + 1), add_assoc]

end SumTiles
-- ==== Proof.R0Value.lean ====
/-
  What the first region leaves in its three output arrays, as functions of the two tables it reads.

  The grid has eight points; point t reads rows 1024 t … 1024 t + 1023 of both tables. The two normalised outputs are
  written back block by block, each block the loaded block with every row divided by its clamped length, so the arrays
  end holding every row of the table so divided. The one-element accumulator is reset at point 0, increased at every
  point by the block's partial sum, and written back after the last point: it ends at the sum over all 8192 rows.
-/
import proofs.«113842_j81071802679459_1_alg».proof.Proof.Gen.KernelIdeal.Frame
import proofs.«113842_j81071802679459_1_alg».proof.Proof.Pieces0
import proofs.«113842_j81071802679459_1_alg».proof.Proof.Pay0
import proofs.«113842_j81071802679459_1_alg».proof.Proof.Spec
import proofs.«113842_j81071802679459_1_alg».proof.Proof.LibSumTiles
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The table of user rows and the table of item rows the region finds. -/
abbrev uArr (c : Dev nD) : FVec Ideal S8192x64 .f32 := V c main_v6
abbrev pArr (c : Dev nD) : FVec Ideal S8192x64 .f32 := V c main_v13

/-- The three output arrays after the region. -/
abbrev unOut (c : Dev nD) : FVec Ideal S8192x64 .f32 := (dat0 V c).arrAt 2 cfg0.N
abbrev pnOut (c : Dev nD) : FVec Ideal S8192x64 .f32 := (dat0 V c).arrAt 3 cfg0.N
abbrev upOut (c : Dev nD) : FVec Ideal S1x1 .f32 := (dat0 V c).arrAt 4 cfg0.N

/-! ## The blocks the points read, as rows of the tables -/

/-- The user block and the item block point `t` reads. -/
abbrev ublk (c : Dev nD) (t : Fin cfg0.N) : Vec Ideal S1024x64 .f32 := iblk0 V c 0 t
abbrev pblk (c : Dev nD) (t : Fin cfg0.N) : Vec Ideal S1024x64 .f32 := iblk0 V c 1 t

/-- The windows' index maps over the grid: the four row windows sit at block row `t`, column block 0; the accumulator's
    one block never moves. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- Row `r` of the user block at point `t` is row `1024 t + r` of the user table. -/
theorem ublk_apply (c : Dev nD) (t : Fin cfg0.N) (r : Fin 1024) (k : Fin 64) (i : Fin 8192)
    (hi : i.val = 1024 * t.val + r.val) : ublk V c t (ix2 r k) = uArr V c (ix2 i k) := by
  obtain ⟨e0, e1, -⟩ := idx_facts t
  show iblk0 V c 0 t (ix2 r k) = V c main_v6 (ix2 i k)
  unfold iblk0
  rw [View.read_apply]
  show V c main_v6 _ = V c main_v6 _
  congr 1
  funext a
  apply Fin.ext
  match a with
  | ⟨0, _⟩ => show win0_0.index t (0 : Fin 2) * 1024 + 1 * r.val = i.val; rw [e0, hi]; omega
  | ⟨1, _⟩ => show win0_0.index t (1 : Fin 2) * 64 + 1 * k.val = k.val; rw [e1]; omega

/-- Row `r` of the item block at point `t` is row `1024 t + r` of the item table. -/
theorem pblk_apply (c : Dev nD) (t : Fin cfg0.N) (r : Fin 1024) (k : Fin 64) (i : Fin 8192)
    (hi : i.val = 1024 * t.val + r.val) : pblk V c t (ix2 r k) = pArr V c (ix2 i k) := by
  obtain ⟨-, -, e0, e1, -⟩ := idx_facts t
  show iblk0 V c 1 t (ix2 r k) = V c main_v13 (ix2 i k)
  unfold iblk0
  rw [View.read_apply]
  show V c main_v13 _ = V c main_v13 _
  congr 1
  funext a
  apply Fin.ext
  match a with
  | ⟨0, _⟩ => show win0_1.index t (0 : Fin 2) * 1024 + 1 * r.val = i.val; rw [e0, hi]; omega
  | ⟨1, _⟩ => show win0_1.index t (1 : Fin 2) * 64 + 1 * k.val = k.val; rw [e1]; omega

/-! ## The two normalised outputs -/

/-- After any point the first output's staging buffer holds that point's user block, every row normalised. -/
theorem un_blk (c : Dev nD) (t : Fin cfg0.N) : (outsAt0 V c t.val t.isLt).1 = k0_pay3 (ublk V c t) := by
  by_cases h0 : t.val % 8 = 0
  · rw [outsAt0_A V c t h0]
    dsimp only
    exact Pieces.out0_A_2_eq (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (ublk V c t) (pblk V c t)
  · rw [outsAt0_B V c t h0]
    dsimp only
    exact Pieces.out0_B_2_eq (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (ublk V c t) (pblk V c t)
      (outsAt0 V c (t.val - 1) (Nat.lt_of_le_of_lt (Nat.sub_le _ _) t.isLt)).2.2

/-- After any point the second output's staging buffer holds that point's item block, every row normalised. -/
theorem pn_blk (c : Dev nD) (t : Fin cfg0.N) : (outsAt0 V c t.val t.isLt).2.1 = k0_pay4 (pblk V c t) := by
  by_cases h0 : t.val % 8 = 0
  · rw [outsAt0_A V c t h0]
    dsimp only
    exact Pieces.out0_A_3_eq (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (ublk V c t) (pblk V c t)
  · rw [outsAt0_B V c t h0]
    dsimp only
    exact Pieces.out0_B_3_eq (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (ublk V c t) (pblk V c t)
      (outsAt0 V c (t.val - 1) (Nat.lt_of_le_of_lt (Nat.sub_le _ _) t.isLt)).2.2

/-- A table with every row divided by its clamped length. -/
abbrev nrmArr (x : FVec Ideal S8192x64 .f32) : FVec Ideal S8192x64 .f32 :=
  fun i => KSpec.nrmRow (fun k' => x (ix2 (i 0) k')) (i 1)

theorem nrmArr_apply (x : FVec Ideal S8192x64 .f32) (i : Fin 8192) (k : Fin 64) :
    nrmArr x (ix2 i k) = KSpec.nrmRow (fun k' => x (ix2 i k')) k := rfl

/-- Where element (r, k) of a row block at point `t` sits in the table: row `1024 t + r`, column `k`. -/
theorem emb_un (t : Fin cfg0.N) (r : Fin 1024) (k : Fin 64) (i : Fin 8192) (hi : i.val = 1024 * t.val + r.val) :
    ((cfg0.win 2).blk t).view.emb (ix2 r k) = (ix2 i k : S8192x64.Idx) := by
  obtain ⟨-, -, -, -, e0, e1, -⟩ := idx_facts t
  funext a
  apply Fin.ext
  match a with
  | ⟨0, _⟩ => show win0_2.index t (0 : Fin 2) * 1024 + 1 * r.val = i.val; rw [e0, hi]; omega
  | ⟨1, _⟩ => show win0_2.index t (1 : Fin 2) * 64 + 1 * k.val = k.val; rw [e1]; omega

theorem emb_pn (t : Fin cfg0.N) (r : Fin 1024) (k : Fin 64) (i : Fin 8192) (hi : i.val = 1024 * t.val + r.val) :
    ((cfg0.win 3).blk t).view.emb (ix2 r k) = (ix2 i k : S8192x64.Idx) := by
  obtain ⟨-, -, -, -, -, -, e0, e1, -⟩ := idx_facts t
  funext a
  apply Fin.ext
  match a with
  | ⟨0, _⟩ => show win0_3.index t (0 : Fin 2) * 1024 + 1 * r.val = i.val; rw [e0, hi]; omega
  | ⟨1, _⟩ => show win0_3.index t (1 : Fin 2) * 64 + 1 * k.val = k.val; rw [e1]; omega

/-- What point `t` writes back to the first output is block `t` of the normalised user table. -/
theorem flushed_un (c : Dev nD) (t : Fin cfg0.N) :
    (dat0 V c).flushed 2 t = ((cfg0.win 2).blk t).view.read (Elt Ideal) (nrmArr (uArr V c)) := by
  have hN : cfg0.N = 8 := N_0
  show (cfg0.win 2).cut (grid0.coords t) ((dat0 V c).after 2 t) = _
  rw [after0_2, un_blk]
  funext y
  obtain ⟨r, k, rfl⟩ : ∃ (r : Fin 1024) (k : Fin 64), y = ix2 r k := ⟨y 0, y 1, eq_ix2 y⟩
  have hr := r.isLt
  have ht := t.isLt
  rw [View.read_apply, emb_un t r k ⟨1024 * t.val + r.val, by omega⟩ rfl]
  show k0_pay3 (ublk V c t) (ix2 r k) = nrmArr (uArr V c) (ix2 ⟨1024 * t.val + r.val, _⟩ k)
  rw [Pay.pay3_apply, nrmArr_apply]
  congr 1
  funext k'
  exact ublk_apply V c t r k' _ rfl

/-- What point `t` writes back to the second output is block `t` of the normalised item table. -/
theorem flushed_pn (c : Dev nD) (t : Fin cfg0.N) :
    (dat0 V c).flushed 3 t = ((cfg0.win 3).blk t).view.read (Elt Ideal) (nrmArr (pArr V c)) := by
  have hN : cfg0.N = 8 := N_0
  show (cfg0.win 3).cut (grid0.coords t) ((dat0 V c).after 3 t) = _
  rw [after0_3, pn_blk]
  funext y
  obtain ⟨r, k, rfl⟩ : ∃ (r : Fin 1024) (k : Fin 64), y = ix2 r k := ⟨y 0, y 1, eq_ix2 y⟩
  have hr := r.isLt
  have ht := t.isLt
  rw [View.read_apply, emb_pn t r k ⟨1024 * t.val + r.val, by omega⟩ rfl]
  show k0_pay4 (pblk V c t) (ix2 r k) = nrmArr (pArr V c) (ix2 ⟨1024 * t.val + r.val, _⟩ k)
  rw [Pay.pay4_apply, nrmArr_apply]
  congr 1
  funext k'
  exact pblk_apply V c t r k' _ rfl

/-- An index of the table is in point `t`'s block of the first output iff each coordinate is in the block's range. -/
theorem mem_blk_un (t : Fin cfg0.N) (i : S8192x64.Idx) :
    i ∈ ((cfg0.win 2).blk t).view.set ↔ ∀ a : Fin 2, win0_2.index t a * S1024x64.size a ≤ (i a).val
      ∧ (i a).val < win0_2.index t a * S1024x64.size a + S1024x64.size a := by
  show i ∈ ((View.whole main_v14_0).slice (win0_2.rect t)).set ↔ _
  rw [View.set_slice_whole, Rect.mem_set_unit]
  exact Iff.rfl

theorem mem_blk_pn (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v14_1).slice (win0_3.rect t)).set ↔ _
  rw [View.set_slice_whole, Rect.mem_set_unit]
  exact Iff.rfl

/-- Row `i` lies in the block of point `i / 1024`: the eight row blocks tile the table. -/
theorem cover_un (i : S8192x64.Idx) : ∃ t : Fin cfg0.N, (cfg0.win 2).flush t = true ∧ i ∈ ((cfg0.win 2).blk t).view.set := by
  have hN : cfg0.N = 8 := N_0
  have hi0 : (i 0).val < 8192 := (i 0).isLt
  have hi1 : (i 1).val < 64 := (i 1).isLt
  refine ⟨⟨(i 0).val / 1024, by omega⟩, flush0_2 _, ?_⟩
  rw [mem_blk_un]
  obtain ⟨-, -, -, -, e0, e1, -⟩ := idx_facts ⟨(i 0).val / 1024, by omega⟩
  intro a
  match a with
  | ⟨0, _⟩ =>
    show win0_2.index _ (0 : Fin 2) * 1024 ≤ (i 0).val ∧ (i 0).val < win0_2.index _ (0 : Fin 2) * 1024 + 1024
    rw [e0]; dsimp only; omega
  | ⟨1, _⟩ =>
    show win0_2.index _ (1 : Fin 2) * 64 ≤ (i 1).val ∧ (i 1).val < win0_2.index _ (1 : Fin 2) * 64 + 64
    rw [e1]; omega

theorem cover_pn (i : S8192x64.Idx) : ∃ t : Fin cfg0.N, (cfg0.win 3).flush t = true ∧ i ∈ ((cfg0.win 3).blk t).view.set := by
  have hN : cfg0.N = 8 := N_0
  have hi0 : (i 0).val < 8192 := (i 0).isLt
  have hi1 : (i 1).val < 64 := (i 1).isLt
  refine ⟨⟨(i 0).val / 1024, by omega⟩, flush0_3 _, ?_⟩
  rw [mem_blk_pn]
  obtain ⟨-, -, -, -, -, -, e0, e1, -⟩ := idx_facts ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 64 ≤ (i 1).val ∧ (i 1).val < win0_3.index _ (1 : Fin 2) * 64 + 64
    rw [e1]; omega

/-- The first output array ends at the normalised user table, the second at the normalised item table. -/
theorem un_final (c : Dev nD) : unOut V c = nrmArr (uArr V c) :=
  (dat0 V c).arrAt_eq_of_cover 2 (nrmArr (uArr V c)) (fun t _ => flushed_un V c t) cover_un

theorem pn_final (c : Dev nD) : pnOut V c = nrmArr (pArr V c) :=
  (dat0 V c).arrAt_eq_of_cover 3 (nrmArr (pArr V c)) (fun t _ => flushed_pn V c t) cover_pn

/-! ## The accumulator -/

/-- The summand of the first sum at row `i` of the two tables. -/
abbrev upTerm (c : Dev nD) (i : Fin 8192) : EReal :=
  KSpec.hUp (KSpec.dotRow (KSpec.nrmRow fun k => uArr V c (ix2 i k)) (KSpec.nrmRow fun k => pArr V c (ix2 i k)))

/-- The partial sum of point `t`: the summands of rows `1024 t … 1024 t + 1023` (zero past the grid). -/
def part (c : Dev nD) (t : ℕ) : EReal :=
  if h : t < 8 then ∑ r : Fin 1024, upTerm V c (finProdFinEquiv ((⟨t, h⟩ : Fin 8), r)) else 0

theorem part_of_lt (c : Dev nD) (t : ℕ) (h : t < 8) :
    part V c t = ∑ r : Fin 1024, upTerm V c (finProdFinEquiv ((⟨t, h⟩ : Fin 8), r)) := dif_pos h

/-- The block's partial sum, as the body computes it from the two blocks of point `t`, is `part t`. -/
theorem pay5_blk (c : Dev nD) (t : Fin cfg0.N) (j : S1x1.Idx) :
    k0_pay5 (ublk V c t) (pblk V c t) j = part V c t.val := by
  have hN : cfg0.N = 8 := N_0
  have ht : t.val < 8 := by have := t.isLt; omega
  rw [Pay.pay5_apply, part_of_lt V c t.val ht]
  refine Finset.sum_congr rfl fun r _ => ?_
  have hi : (finProdFinEquiv ((⟨t.val, ht⟩ : Fin 8), r)).val = 1024 * t.val + r.val := by
    rw [SumTiles.tile_val]
    show r.val + 1024 * t.val = 1024 * t.val + r.val
    omega
  have eu : (fun k => ublk V c t (ix2 r k)) = fun k => uArr V c (ix2 (finProdFinEquiv ((⟨t.val, ht⟩ : Fin 8), r)) k) :=
    funext fun k => ublk_apply V c t r k _ hi
  have ep : (fun k => pblk V c t (ix2 r k)) = fun k => pArr V c (ix2 (finProdFinEquiv ((⟨t.val, ht⟩ : Fin 8), r)) k) :=
    funext fun k => pblk_apply V c t r k _ hi
  rw [eu, ep]

/-- The accumulator after point 0: reset, then the first partial sum. -/
theorem acc_zero (c : Dev nD) (h : 0 < cfg0.N) (j : S1x1.Idx) : (outsAt0 V c 0 h).2.2 j = 0 + part V c 0 := by
  have e : (outsAt0 V c 0 h).2.2 = k0_pay2 (k0_pay5 (ublk V c ⟨0, h⟩) (pblk V c ⟨0, h⟩)) (k0_pay1 (F := Ideal)) := by
    rw [outsAt0_A V c ⟨0, h⟩ rfl]
    dsimp only
    exact Pieces.out0_A_4_eq (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (ublk V c ⟨0, h⟩) (pblk V c ⟨0, h⟩)
  rw [e, Pay.pay2_apply, Pay.pay1_apply, pay5_blk]

/-- The accumulator after a later point: what the point before left, plus this point's partial sum. -/
theorem acc_succ (c : Dev nD) (n : ℕ) (h : n + 1 < cfg0.N) (j : S1x1.Idx) :
    (outsAt0 V c (n + 1) h).2.2 j = (outsAt0 V c n (Nat.lt_of_succ_lt h)).2.2 j + part V c (n + 1) := by
  have hN : cfg0.N = 8 := N_0
  have hB : ¬(⟨n + 1, h⟩ : Fin cfg0.N).val % 8 = 0 := by dsimp only; omega
  have e : (outsAt0 V c (n + 1) h).2.2 = k0_pay2 (k0_pay5 (ublk V c ⟨n + 1, h⟩) (pblk V c ⟨n + 1, h⟩))
      (outsAt0 V c n (Nat.lt_of_succ_lt h)).2.2 := by
    rw [outsAt0_B V c ⟨n + 1, h⟩ hB]
    dsimp only
    exact Pieces.out0_B_4_eq (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) (fun hc => hB ((hcond0_0 ⟨n + 1, h⟩).mp hc)) (ublk V c ⟨n + 1, h⟩) (pblk V c ⟨n + 1, h⟩)
      (outsAt0 V c n (Nat.lt_of_succ_lt h)).2.2
  rw [e, Pay.pay2_apply, pay5_blk]

/-- So after point `n` the accumulator holds the partial sums of points `0 … n`. -/
theorem acc_eq (c : Dev nD) (j : S1x1.Idx) : ∀ (n : ℕ) (h : n < cfg0.N),
    (outsAt0 V c n h).2.2 j = 0 + ∑ t ∈ Finset.range (n + 1), part V c t
  | 0, h => by rw [acc_zero V c h j, Finset.sum_range_one]
  | n + 1, h => by
    rw [acc_succ V c n h j, acc_eq c j n (Nat.lt_of_succ_lt h), Finset.sum_range_succ _ (n + 1), add_assoc]

/-- The first sum over the two tables. -/
abbrev upSum (c : Dev nD) : EReal := ∑ i : Fin 8192, upTerm V c i

/-- The eight partial sums add up to the sum over all rows. -/
theorem parts_sum (c : Dev nD) : 0 + ∑ t ∈ Finset.range (7 + 1), part V c t = upSum V c := by
  rw [zero_add, Finset.sum_range (fun t => part V c t)]
  show _ = ∑ i : Fin (8 * 1024), upTerm V c i
  rw [SumTiles.sum_tiles_rows 8 1024 (fun i => upTerm V c i)]
  exact Finset.sum_congr rfl fun t _ => part_of_lt V c t.val t.isLt

/-- The one-element array holding the first sum. -/
abbrev upArr (c : Dev nD) : FVec Ideal S1x1 .f32 := fun _ => upSum V c

/-- The one write-back of the accumulator, after the last point, writes the sum over all rows. -/
theorem flushed_up (c : Dev nD) (t : Fin cfg0.N) (hf : (cfg0.win 4).flush t = true) :
    (dat0 V c).flushed 4 t = ((cfg0.win 4).blk t).view.read (Elt Ideal) (upArr V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  funext y
  rw [View.read_apply]
  show (outsAt0 V c 7 t0_7.isLt).2.2 y = upSum V c
  exact (acc_eq V c y 7 t0_7.isLt).trans (parts_sum V c)

/-- An index of the one-element array is in point `t`'s block iff each coordinate is in the block's range. -/
theorem mem_blk_up (t : Fin cfg0.N) (i : S1x1.Idx) :
    i ∈ ((cfg0.win 4).blk t).view.set ↔ ∀ a : Fin 2, win0_4.index t a * S1x1.size a ≤ (i a).val
      ∧ (i a).val < win0_4.index t a * S1x1.size a + S1x1.size a := by
  show i ∈ ((View.whole main_v14_2).slice (win0_4.rect t)).set ↔ _
  rw [View.set_slice_whole, Rect.mem_set_unit]
  exact Iff.rfl

/-- The last point's block is the whole one-element array. -/
theorem cover_up (i : S1x1.Idx) : ∃ t : Fin cfg0.N, (cfg0.win 4).flush t = true ∧ i ∈ ((cfg0.win 4).blk t).view.set := by
  refine ⟨t0_7, (flush0_4 t0_7).mpr rfl, ?_⟩
  rw [mem_blk_up]
  obtain ⟨-, -, -, -, -, -, -, -, e0, e1⟩ := idx_facts t0_7
  have hi0 : (i 0).val < 1 := (i 0).isLt
  have hi1 : (i 1).val < 1 := (i 1).isLt
  intro a
  match a with
  | ⟨0, _⟩ =>
    show win0_4.index t0_7 (0 : Fin 2) * 1 ≤ (i 0).val ∧ (i 0).val < win0_4.index t0_7 (0 : Fin 2) * 1 + 1
    rw [e0]; omega
  | ⟨1, _⟩ =>
    show win0_4.index t0_7 (1 : Fin 2) * 1 ≤ (i 1).val ∧ (i 1).val < win0_4.index t0_7 (1 : Fin 2) * 1 + 1
    rw [e1]; omega

/-- The accumulator's array ends at the sum over all rows. -/
theorem up_final (c : Dev nD) : upOut V c = upArr V c :=
  (dat0 V c).arrAt_eq_of_cover 4 (upArr V c) (flushed_up V c) cover_up

/-- The normalised user table: every row of the user table divided by its clamped length. -/
theorem un_eq (c : Dev nD) (i : Fin 8192) (k : Fin 64) :
    unOut V c (ix2 i k) = KSpec.nrmRow (fun k' => uArr V c (ix2 i k')) k := by
  rw [un_final]

/-- The normalised item table. -/
theorem pn_eq (c : Dev nD) (i : Fin 8192) (k : Fin 64) :
    pnOut V c (ix2 i k) = KSpec.nrmRow (fun k' => pArr V c (ix2 i k')) k := by
  rw [pn_final]

/-- The first sum, over all 8192 rows. -/
theorem up_eq (c : Dev nD) (j : S1x1.Idx) :
    upOut V c j = KSpec.upTotal (KSpec.nrm (KSpec.rows (n := 8192) (uArr V c))) (KSpec.nrm (KSpec.rows (n := 8192) (pArr V c))) := by
  rw [up_final]
  rfl

end Cert.KernelIdeal.R0

end
-- ==== Proof.Pieces1.lean ====
/-
  The second kernel's body, case by case, read back as a value.

  At a grid point the body loads a block `x0` of normalised user rows and a block `x1` of normalised item rows and adds
  the tile's partial sum into the one-element accumulator: at the first point over a zero it has just stored and read
  back, at every later point over what the point before left. The accumulator's staging buffer is covered by the
  body's stores, so it ends at the last store's value.
-/
import proofs.«113842_j81071802679459_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

/-- The two zero offsets of a whole-block rectangle, spelt as the constant function. -/
private theorem hz : (![0, 0] : Fin 2 → Nat) = fun _ => 0 := funext fun a => by fin_cases a <;> rfl

/-- First point: zero, then the tile's partial sum added. -/
theorem out1_A_2_eq (c : Dev nD) (i : grid1.Coords) (a2 : Memref sig .tc .vmem S512x64 .f32) (h2 : a2.IsWhole) (a3 : Memref sig .tc .vmem S512x64 .f32) (h3 : a3.IsWhole) (a4 : Memref sig .tc .vmem S1x1 .f32) (h4 : a4.IsWhole) (hc : cond1_0 i)
    (x0 x1 : Vec F S512x64 .f32) :
    out1_A_2 c i a2 h2 a3 h3 a4 h4 hc x0 x1 = k1_pay2 x0 x1 (k1_pay1 (F := F)) := by
  unfold out1_A_2
  rw [View.read_writes_eq_canon VO1_2 VO1_2.junk _ (cover1_A_2 c i a2 h2 a3 h3 a4 h4 hc x0 x1)]
  unfold kernelRun1_A
  dsimp only
  sl_unfold_words
  rw [View.canon_cons_unit_zero (S := S1x1) hz, View.readCov_unit_zero (S := S1x1) a4.view hz]
  simp only [View.readAt_eq_ld, h2.read_unread, h3.read_unread, View.ld_unit_zero (S := S512x64) hz]

/-- A later point: what the point before left, the tile's partial sum added. -/
theorem out1_B_2_eq (c : Dev nD) (i : grid1.Coords) (a2 : Memref sig .tc .vmem S512x64 .f32) (h2 : a2.IsWhole) (a3 : Memref sig .tc .vmem S512x64 .f32) (h3 : a3.IsWhole) (a4 : Memref sig .tc .vmem S1x1 .f32) (h4 : a4.IsWhole) (hc : ¬cond1_0 i)
    (x0 x1 : Vec F S512x64 .f32) (xo2 : Vec F S1x1 .f32) :
    out1_B_2 c i a2 h2 a3 h3 a4 h4 hc x0 x1 xo2 = k1_pay2 x0 x1 xo2 := by
  unfold out1_B_2
  rw [View.read_writes_eq_canon VO1_2 VO1_2.junk _ (cover1_B_2 c i a2 h2 a3 h3 a4 h4 hc x0 x1 xo2)]
  unfold kernelRun1_B
  dsimp only
  sl_unfold_words
  rw [View.canon_unit_zero (S := S1x1) hz]
  simp only [View.readAt_eq_ld, h2.read_unread, h3.read_unread, h4.read_unread,
    View.ld_unit_zero (S := S512x64) hz, View.ld_unit_zero (S := S1x1) hz]

end Cert.KernelIdeal.Pieces

end
-- ==== Proof.Pay1.lean ====
/-
  The second kernel's arithmetic at an index, over the extended reals.

  The tile's 512 × 512 inner products are the matrix product of the user block with the transposed item block: entry
  (a, b) is the inner product of user row a and item row b. The accumulator's new value is its old value plus the sum,
  over the tile, of e^(s/T) + e^(s²/T) at those inner products; the reset value is zero.
-/
import proofs.«113842_j81071802679459_1_alg».proof.Proof.Gen.KernelIdeal.Skeleton
import proofs.«113842_j81071802679459_1_alg».proof.Proof.Spec
import proofs.«113842_j81071802679459_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx

/-! ## The tile's matrix product at coordinates -/

/-- The product's operand indices: at output (a, b) and shared coordinate k the left operand is read at (a, k) and the
    right operand at (k, b). These four say so coordinate by coordinate. -/
theorem lhs_tile_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_tile_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_tile_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_tile_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product of a [512, 64] block with a [64, 512] block, into zero: entry (a, b) is the sum over the 64 shared
    coordinates of the products. -/
theorem matmul_tile_apply (u : FVec Ideal S512x64 .f32) (w : FVec Ideal S64x512 .f32) (a b : Fin 512) :
    matmul dot_S512x64_S64x512_S512x512_1_0_0_1_n_n none u w (constant (F := Ideal) S512x512 .f32 0x00000000#32) (ix2 a b)
      = ∑ k : Fin 64, u (ix2 a k) * w (ix2 k b) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 a b) ((ValueIdx.contrEquiv1 dot_S512x64_S64x512_S512x512_1_0_0_1_n_n 64 rfl rfl).symm k) = ix2 a k := funext fun c => Fin.ext (by
    match c with
    | ⟨0, _⟩ => exact lhs_tile_0 _ _
    | ⟨1, _⟩ => exact (lhs_tile_1 _ _).trans hk)
  have er : dot_S512x64_S64x512_S512x512_1_0_0_1_n_n.rhsIdx (ix2 a b) ((ValueIdx.contrEquiv1 dot_S512x64_S64x512_S512x512_1_0_0_1_n_n 64 rfl rfl).symm k) = ix2 k b := funext fun c => Fin.ext (by
    match c with
    | ⟨0, _⟩ => exact (rhs_tile_0 _ _).trans hk
    | ⟨1, _⟩ => exact rhs_tile_1 _ _)
  rw [el, er]

/-! ## The sum over a [1, a, b] array's indices -/

/-- A [1, a, b] index set is the product of its last two coordinate ranges. -/
def idxEquiv1ab {a b : ℕ} : (⟨3, ![1, a, b]⟩ : Shape).Idx ≃ Fin a × Fin b where
  toFun i := (i 1, i 2)
  invFun p := ix3 (0 : Fin 1) p.1 p.2
  left_inv i := by
    funext c
    match c with
    | ⟨0, _⟩ =>
      have h : (i 0).val < 1 := (i 0).isLt
      exact Fin.ext (show 0 = (i 0).val by omega)
    | ⟨1, _⟩ => rfl
    | ⟨2, _⟩ => rfl
  right_inv _ := rfl

/-- So a sum over it is the double sum over those coordinates. -/
theorem sum_idx1ab {M : Type*} [AddCommMonoid M] {a b : ℕ} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-! ## The tile's inner products, and the one number read out of the reduced tile -/

/-- Entry (a, b) of the user block times the transposed item block is the inner product of user row a and item row b. -/
theorem tile_apply (x0 x1 : FVec Ideal S512x64 .f32) (a b : Fin 512) :
    matmul dot_S512x64_S64x512_S512x512_1_0_0_1_n_n none (shapeCast S512x64 x0 shapeCasts_S512x64_S512x64)
        (transpose S64x512 [1, 0] (shapeCast S512x64 x1 shapeCasts_S512x64_S512x64) transposes_S512x64_p1_0_S64x512)
        (constant (F := Ideal) S512x512 .f32 0x00000000#32) (ix2 a b)
      = KSpec.dotRow (fun k => x0 (ix2 a k)) (fun k => x1 (ix2 b k)) := by
  rw [matmul_tile_apply]
  unfold KSpec.dotRow
  refine Finset.sum_congr rfl fun k _ => ?_
  rw [shapeCast_self, transpose_ix2_apply, shapeCast_self]

/-- A one-entry array viewed as [1, 1, 1] and read at its one position is the array's one value. -/
theorem extract_cast_one (v : FVec Ideal S1 .f32) (c : EReal) (hv : ∀ i, v i = c) :
    extractAt ![0, 0, 0] (shapeCast S1x1x1 v shapeCasts_S1_S1x1x1) inpos_S1x1x1_p0_0_0 = c :=
  hv _

/-- The reset value is zero. -/
theorem k1_pay1_apply (j : S1x1.Idx) : (k1_pay1 (F := Ideal)) j = 0 := by
  unfold k1_pay1
  show Ideal.ofBits .f32 0x00000000#32 = 0
  exact Ideal.ofBits_zero_f32

/-- The accumulator's new value: the old value plus the tile's sum. -/
theorem k1_pay2_apply (x0 x1 : Vec Ideal S512x64 .f32) (acc : Vec Ideal S1x1 .f32) (j : S1x1.Idx) :
    k1_pay2 x0 x1 acc j
      = acc j + ∑ a : Fin 512, ∑ b : Fin 512, KSpec.gDn (KSpec.dotRow (fun k => x0 (ix2 a k)) (fun k => x1 (ix2 b k))) := by
  unfold k1_pay2
  refine (addf_apply _ _ j).trans ?_
  rw [shapeCast_self, broadcast_apply]
  refine congrArg (acc j + ·) ?_
  refine extract_cast_one _ _ fun i => ?_
  refine (Ideal.multiReduction_add_total _ _ _ (by decide) _ _ i).trans ?_
  rw [sum_idx1ab]
  refine Finset.sum_congr rfl fun a _ => Finset.sum_congr rfl fun b _ => ?_
  rw [shapeCast_ab_1ab_apply]
  exact congrArg KSpec.gDn (tile_apply x0 x1 a b)

end Cert.KernelIdeal.Pay

end
-- ==== Proof.R1Value.lean ====
/-
  What the second region leaves in its output array, as a function of the two tables it reads.

  The grid is 16 × 16; point t = 16 ti + tj reads rows 512 ti … 512 ti + 511 of the first table and rows
  512 tj … 512 tj + 511 of the second. The one-element accumulator is reset at point 0, increased at every point by the
  tile's sum over its 512 × 512 pairs of rows, and written back after the last point: it ends at the sum over all
  8192 × 8192 pairs.
-/
import proofs.«113842_j81071802679459_1_alg».proof.Proof.Gen.KernelIdeal.Frame
import proofs.«113842_j81071802679459_1_alg».proof.Proof.Pieces1
import proofs.«113842_j81071802679459_1_alg».proof.Proof.Pay1
import proofs.«113842_j81071802679459_1_alg».proof.Proof.Spec
import proofs.«113842_j81071802679459_1_alg».proof.Proof.LibSumTiles
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two tables the region finds. -/
abbrev uArr (c : Dev nD) : FVec Ideal S8192x64 .f32 := V c main_v14_0
abbrev pArr (c : Dev nD) : FVec Ideal S8192x64 .f32 := V c main_v14_1

/-- The output array after the region. -/
abbrev dnOut (c : Dev nD) : FVec Ideal S1x1 .f32 := (dat1 V c).arrAt 2 cfg1.N

/-! ## The accumulator, point by point -/

/-- The two blocks a point reads: 512 rows of each table. -/
abbrev ublk (c : Dev nD) (t : Fin cfg1.N) : Vec Ideal S512x64 .f32 := iblk1 V c 0 t
abbrev pblk (c : Dev nD) (t : Fin cfg1.N) : Vec Ideal S512x64 .f32 := iblk1 V c 1 t

/-- The sum over the 512 × 512 pairs of rows of two blocks. -/
def tileSum (x0 x1 : Vec Ideal S512x64 .f32) : EReal :=
  ∑ a : Fin 512, ∑ b : Fin 512, KSpec.gDn (KSpec.dotRow (fun k => x0 (ix2 a k)) (fun k => x1 (ix2 b k)))

/-- The tile sum of point `t` (zero past the grid). -/
def addend (c : Dev nD) (t : ℕ) : EReal :=
  if h : t < cfg1.N then tileSum (ublk V c ⟨t, h⟩) (pblk V c ⟨t, h⟩) else 0

theorem addend_of_lt (c : Dev nD) (t : ℕ) (h : t < cfg1.N) :
    addend V c t = tileSum (ublk V c ⟨t, h⟩) (pblk V c ⟨t, h⟩) := dif_pos h

/-- The accumulator's one entry after point `n` (zero past the grid). -/
def accAt (c : Dev nD) (j : S1x1.Idx) (n : ℕ) : EReal :=
  if h : n < cfg1.N then outsAt1 V c n h j else 0

theorem accAt_of_lt (c : Dev nD) (j : S1x1.Idx) (n : ℕ) (h : n < cfg1.N) :
    accAt V c j n = outsAt1 V c n h j := dif_pos h

/-- Point 0 resets the accumulator and adds its tile sum. -/
theorem outs_zero (c : Dev nD) (j : S1x1.Idx) (h : 0 < cfg1.N) :
    outsAt1 V c 0 h j = 0 + tileSum (ublk V c ⟨0, h⟩) (pblk V c ⟨0, h⟩) := by
  refine (congrFun (outsAt1_A V c ⟨0, h⟩ rfl) j).trans ?_
  refine (congrFun (Pieces.out1_A_2_eq (F := Ideal) c (grid1.coords ⟨0, h⟩) (ms1_0 ⟨0, h⟩) (hs1_0 ⟨0, h⟩)
    (ms1_1 ⟨0, h⟩) (hs1_1 ⟨0, h⟩) (ms1_2 ⟨0, h⟩) (hs1_2 ⟨0, h⟩) ((hcond1_0 ⟨0, h⟩).mpr rfl)
    (ublk V c ⟨0, h⟩) (pblk V c ⟨0, h⟩)) j).trans ?_
  refine (Pay.k1_pay2_apply (ublk V c ⟨0, h⟩) (pblk V c ⟨0, h⟩) (k1_pay1 (F := Ideal)) j).trans ?_
  rw [Pay.k1_pay1_apply]
  rfl

/-- A later point adds its tile sum to what the point before left. -/
theorem outs_succ (c : Dev nD) (j : S1x1.Idx) (n : ℕ) (h : n + 1 < cfg1.N) :
    outsAt1 V c (n + 1) h j
      = outsAt1 V c n (Nat.lt_of_succ_lt h) j + tileSum (ublk V c ⟨n + 1, h⟩) (pblk V c ⟨n + 1, h⟩) := by
  have hB : ¬(⟨n + 1, h⟩ : Fin cfg1.N).val % 256 = 0 := by
    have hN : cfg1.N = 256 := N_1
    dsimp only; omega
  refine (congrFun (outsAt1_B V c ⟨n + 1, h⟩ hB) j).trans ?_
  refine (congrFun (Pieces.out1_B_2_eq (F := Ideal) c (grid1.coords ⟨n + 1, h⟩) (ms1_0 ⟨n + 1, h⟩) (hs1_0 ⟨n + 1, h⟩)
    (ms1_1 ⟨n + 1, h⟩) (hs1_1 ⟨n + 1, h⟩) (ms1_2 ⟨n + 1, h⟩) (hs1_2 ⟨n + 1, h⟩)
    (fun hh => hB ((hcond1_0 ⟨n + 1, h⟩).mp hh))
    (ublk V c ⟨n + 1, h⟩) (pblk V c ⟨n + 1, h⟩) (outsAt1 V c n (Nat.lt_of_succ_lt h))) j).trans ?_
  exact Pay.k1_pay2_apply (ublk V c ⟨n + 1, h⟩) (pblk V c ⟨n + 1, h⟩) (outsAt1 V c n (Nat.lt_of_succ_lt h)) j

/-- So after point `n` the accumulator holds the sum of the tile sums of the points up to `n`. -/
theorem outs_eq_sum (c : Dev nD) (j : S1x1.Idx) (n : ℕ) (hn : n < cfg1.N) :
    outsAt1 V c n hn j = 0 + ∑ t ∈ Finset.range (n + 1), addend V c t := by
  have h0 : 0 < cfg1.N := Nat.lt_of_le_of_lt (Nat.zero_le n) hn
  rw [← accAt_of_lt V c j n hn]
  refine SumTiles.chain_eq_sum_lt cfg1.N 0 (addend V c) (accAt V c j) ?_ ?_ n hn
  · rw [accAt_of_lt V c j 0 h0, addend_of_lt V c 0 h0]
    exact outs_zero V c j h0
  · intro k hk
    rw [accAt_of_lt V c j (k + 1) hk, accAt_of_lt V c j k (Nat.lt_of_succ_lt hk), addend_of_lt V c (k + 1) hk]
    exact outs_succ V c j k hk

/-! ## The array after the region -/

/-- The sum of the 256 tile sums, from zero. -/
def total (c : Dev nD) : EReal := 0 + ∑ t ∈ Finset.range 256, addend V c t

/-- The one-element array holding it. -/
abbrev totalArr (c : Dev nD) : Buf (Elt Ideal) ((c : Thread nD τ).loc main_v15) := fun _ => total V c

/-- The last point of the grid. -/
abbrev tLast : Fin cfg1.N := ⟨255, by rw [show cfg1.N = 256 from N_1]; decide⟩

/-- The one write-back, after the last point, writes the accumulated sum. -/
theorem flushed_eq (c : Dev nD) (t : Fin cfg1.N) (hf : (cfg1.win 2).flush t = true) :
    (dat1 V c).flushed 2 t = ((cfg1.win 2).blk t).view.read (Elt Ideal) (totalArr V c) := by
  have hN : cfg1.N = 256 := N_1
  have h255 : t.val = 255 := by have := (flush1_2 t).mp hf; have := t.isLt; omega
  obtain rfl : t = tLast := Fin.ext h255
  show (cfg1.win 2).cut (grid1.coords tLast) ((dat1 V c).after 2 tLast) = _
  rw [after1_2]
  funext y
  rw [View.read_apply]
  show outsAt1 V c 255 tLast.isLt y = total V c
  exact outs_eq_sum V c y 255 tLast.isLt

/-- The block written back is the whole one-element array, so the array ends holding the sum. -/
theorem final (c : Dev nD) : (dat1 V c).arrAt 2 cfg1.N = totalArr V c :=
  (dat1 V c).arrAt_eq_of_cover 2 (totalArr V c) (flushed_eq V c) fun i =>
    ⟨tLast, (flush1_2 tLast).mpr rfl, by
      show i ∈ ((View.whole main_v15).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]
        omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 1 from by decide +kernel]
        omega⟩

theorem dnOut_eq (c : Dev nD) (j : S1x1.Idx) : dnOut V c j = total V c :=
  congrFun (final V c) j

/-! ## The blocks are rows of the tables -/

/-- Where the two input windows' blocks sit: point `t` reads block `t / 16` of the first table and block `t % 16`
    of the second, both from column 0 (decided over the 256 points). -/
theorem idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0 :=
  (by decide +kernel : ∀ t : Fin grid1.N,
    win1_0.index t (0 : Fin 2) = t.val / 16 ∧ win1_0.index t (1 : Fin 2) = 0
    ∧ win1_1.index t (0 : Fin 2) = t.val % 16 ∧ win1_1.index t (1 : Fin 2) = 0)

/-- Row `a` of the first block of point `t` is row `512 (t / 16) + a` of the first table. -/
theorem ublk_apply (c : Dev nD) (t : Fin cfg1.N) (a : Fin 512) (k : Fin 64) (r : Fin 8192)
    (hr : r.val = a.val + 512 * (t.val / 16)) :
    ublk V c t (ix2 a k) = uArr V c (ix2 r k) := by
  have hi := idx_facts t
  unfold ublk iblk1
  rw [View.read_apply]
  show V c main_v14_0 _ = V c main_v14_0 _
  congr 1
  funext d
  apply Fin.ext
  match d with
  | ⟨0, _⟩ => show win1_0.index t 0 * 512 + 1 * a.val = r.val; rw [hi.1, hr]; omega
  | ⟨1, _⟩ => show win1_0.index t 1 * 64 + 1 * k.val = k.val; rw [hi.2.1]; omega

/-- Row `b` of the second block of point `t` is row `512 (t % 16) + b` of the second table. -/
theorem pblk_apply (c : Dev nD) (t : Fin cfg1.N) (b : Fin 512) (k : Fin 64) (r : Fin 8192)
    (hr : r.val = b.val + 512 * (t.val % 16)) :
    pblk V c t (ix2 b k) = pArr V c (ix2 r k) := by
  have hi := idx_facts t
  unfold pblk iblk1
  rw [View.read_apply]
  show V c main_v14_1 _ = V c main_v14_1 _
  congr 1
  funext d
  apply Fin.ext
  match d with
  | ⟨0, _⟩ => show win1_1.index t 0 * 512 + 1 * b.val = r.val; rw [hi.2.2.1, hr]; omega
  | ⟨1, _⟩ => show win1_1.index t 1 * 64 + 1 * k.val = k.val; rw [hi.2.2.2]; omega

/-! ## All the tiles together -/

/-- The tile sum of point `t`, over the tables' rows: tile row `t / 16` of the first, tile column `t % 16` of the
    second. -/
theorem addend_eq (c : Dev nD) (t : Fin (16 * 16)) :
    addend V c t.val = ∑ a : Fin 512, ∑ b : Fin 512,
      KSpec.gDn (KSpec.dotRow
        (KSpec.rows (n := 8192) (uArr V c) (finProdFinEquiv ((finProdFinEquiv.symm t).1, a)))
        (KSpec.rows (n := 8192) (pArr V c) (finProdFinEquiv ((finProdFinEquiv.symm t).2, b)))) := by
  have ht : t.val < cfg1.N := by rw [show cfg1.N = 256 from N_1]; exact t.isLt
  rw [addend_of_lt V c t.val ht]
  unfold tileSum
  refine Finset.sum_congr rfl fun a _ => Finset.sum_congr rfl fun b _ => ?_
  have hu : (fun k => ublk V c ⟨t.val, ht⟩ (ix2 a k))
      = KSpec.rows (n := 8192) (uArr V c) (finProdFinEquiv ((finProdFinEquiv.symm t).1, a)) :=
    funext fun k => ublk_apply V c ⟨t.val, ht⟩ a k (finProdFinEquiv ((finProdFinEquiv.symm t).1, a))
      ((SumTiles.tile_val _ a).trans (congrArg (fun x => a.val + 512 * x) (SumTiles.tile_fst_val t)))
  have hp : (fun k => pblk V c ⟨t.val, ht⟩ (ix2 b k))
      = KSpec.rows (n := 8192) (pArr V c) (finProdFinEquiv ((finProdFinEquiv.symm t).2, b)) :=
    funext fun k => pblk_apply V c ⟨t.val, ht⟩ b k (finProdFinEquiv ((finProdFinEquiv.symm t).2, b))
      ((SumTiles.tile_val _ b).trans (congrArg (fun x => b.val + 512 * x) (SumTiles.tile_snd_val t)))
  rw [hu, hp]

/-- The sum of the 256 tile sums is the sum over all pairs of rows. -/
theorem total_eq (c : Dev nD) :
    total V c = KSpec.dnTotal (KSpec.rows (n := 8192) (uArr V c)) (KSpec.rows (n := 8192) (pArr V c)) := by
  unfold total KSpec.dnTotal
  rw [zero_add, Finset.sum_range (addend V c)]
  refine Eq.trans ?_ (SumTiles.sum_tiles_grid 16 16 512 512 (fun i j =>
    KSpec.gDn (KSpec.dotRow (KSpec.rows (n := 8192) (uArr V c) i) (KSpec.rows (n := 8192) (pArr V c) j)))).symm
  exact Finset.sum_congr rfl fun t _ => addend_eq V c t

/-- The second sum, over all pairs of rows. -/
theorem dn_eq (c : Dev nD) (j : S1x1.Idx) :
    dnOut V c j = KSpec.dnTotal (KSpec.rows (n := 8192) (uArr V c)) (KSpec.rows (n := 8192) (pArr V c)) :=
  (dnOut_eq V c j).trans (total_eq V c)

end Cert.KernelIdeal.R1

end
-- ==== Proof.RefFold.lean ====
/-
  The reference program's run, read stage by stage.

  The reference is a straight line of 125 host operations. Every weakly fair execution ends with each buffer at the
  fold of the operations' results over the launch contents. Here that fold, at the result buffer, is identified with the
  last of the stages — each stage one operation's value as a function of the arguments —, cutting the line where a value
  is used more than once so that no shared value is ever written out twice; and at each argument buffer the fold is the
  launch contents, since no operation writes an argument.
-/
import proofs.«113842_j81071802679459_1_alg».proof.Proof.RefRead
import Idealize.ShloMosaic.Lib.StableHlo.Run
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 50000000 in
/-- The fold of the 125 operations, at the result buffer, is the last stage of the arguments' launch contents. -/
theorem fold_result (d : Dev nD) :
    after (ops (F := F)) (launchContents m d) (Proc.devRef .tc main_v84)
      = val_main_v84 (F := F) (m ((d.tc : Thread nD τ).loc main_arg0)) (m ((d.tc : Thread nD τ).loc main_arg1)) (m ((d.tc : Thread nD τ).loc main_arg3)) (m ((d.tc : Thread nD τ).loc main_arg4)) := by
  unfold val_main_v84
  -- the last operation joins the two entries; each entry is read on its own
  simp only [ops, after_cons, after_nil]
  rw [binary_result]
  refine congrArg₂ (fun a b => concatenate S2 0 [⟨S1, a⟩, ⟨S1, b⟩] concatenates_S1_S1_S2_d0) ?_ ?_
  · after_results_simp
    rfl
  · after_results_simp
    rfl

set_option maxRecDepth 8192 in
set_option maxHeartbeats 50000000 in
/-- On every device, from any memory with zero counters: every weakly fair execution of the reference terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v84)
        = val_main_v84 (F := F) (m ((d.tc : Thread nD τ).loc main_arg0)) (m ((d.tc : Thread nD τ).loc main_arg1)) (m ((d.tc : Thread nD τ).loc main_arg3)) (m ((d.tc : Thread nD τ).loc main_arg4))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4) :=
  (θ_run defs _ _).mono (fun _ h d => ⟨(h d main_v84).trans (fold_result m d),
      (h d main_arg0).trans (by after_results_simp <;> rfl),
      (h d main_arg1).trans (by after_results_simp <;> rfl),
      (h d main_arg2).trans (by after_results_simp <;> rfl),
      (h d main_arg3).trans (by after_results_simp <;> rfl),
      (h d main_arg4).trans (by after_results_simp <;> rfl)⟩)
    (run_fold m ρ)

end Cert.ReferenceIdeal.RefFold

end
-- ==== Proof.RefValue.lean ====
/-
  The reference's stages, as the specification's functions of the two gathered tables.

  The reference divides every row of each gathered table by its clamped length, sums over the rows the function of the
  inner product of the two normalised rows, and sums over all pairs of rows the function of the entries of the matrix
  product of the first normalised table with the transposed second one. A host sum starts from the constant zero, which
  changes nothing.
-/
import proofs.«113842_j81071802679459_1_alg».proof.Proof.RefRead
import proofs.«113842_j81071802679459_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.ReadP
open Idealize.ShloMosaic Idealize.ShloMosaic.ValueIdx

variable (x0 x1 : (⟨S8192, .i32⟩ : BufTy).Contents (Elt Ideal)) (x3 x4 : (⟨S100000x64, .f32⟩ : BufTy).Contents (Elt Ideal))

/-- The gathered tables and the normalised tables, at their literal type. -/
abbrev uTab : FVec Ideal S8192x64 .f32 := val_main_v6 (F := Ideal) x0 x3
abbrev pTab : FVec Ideal S8192x64 .f32 := val_main_v18 (F := Ideal) x1 x4
abbrev unTab : FVec Ideal S8192x64 .f32 := val_main_v11 (F := Ideal) x0 x3
abbrev pnTab : FVec Ideal S8192x64 .f32 := val_main_v23 (F := Ideal) x1 x4

/-- The coordinates the reference's layout operations and sums read at, at an index given by its coordinates. -/
theorem idx_v10_ix2 (i : Fin 8192) (k : Fin 64) : idx_main_v10 (ix2 i k) = ix2 i (0 : Fin 1) :=
  funext fun a => Fin.ext (by match a with | ⟨0, _⟩ => rfl | ⟨1, _⟩ => rfl)
theorem idx_call0_v2_ix2 (i : Fin 8192) : idx_main_call0_v2 (ix2 i (0 : Fin 1)) = ix1 i :=
  funext fun a => Fin.ext (by match a with | ⟨0, _⟩ => rfl)
theorem idx_call0_v1_ix1 (i : Fin 8192) (k : Fin 64) : idx_main_call0_v1 (ix1 i) k = ix2 i k :=
  funext fun a => Fin.ext (by match a with | ⟨0, _⟩ => rfl | ⟨1, _⟩ => rfl)
theorem idx_v22_ix2 (i : Fin 8192) (k : Fin 64) : idx_main_v22 (ix2 i k) = ix2 i (0 : Fin 1) :=
  funext fun a => Fin.ext (by match a with | ⟨0, _⟩ => rfl | ⟨1, _⟩ => rfl)
theorem idx_call1_v2_ix2 (i : Fin 8192) : idx_main_call1_v2 (ix2 i (0 : Fin 1)) = ix1 i :=
  funext fun a => Fin.ext (by match a with | ⟨0, _⟩ => rfl)
theorem idx_call1_v1_ix1 (i : Fin 8192) (k : Fin 64) : idx_main_call1_v1 (ix1 i) k = ix2 i k :=
  funext fun a => Fin.ext (by match a with | ⟨0, _⟩ => rfl | ⟨1, _⟩ => rfl)

theorem idx_v25_ix1 (i : Fin 8192) (k : Fin 64) : idx_main_v25 (ix1 i) k = ix2 i k :=
  funext fun a => Fin.ext (by match a with | ⟨0, _⟩ => rfl | ⟨1, _⟩ => rfl)

theorem idx_v37_ix2 (k : Fin 64) (j : Fin 8192) : idx_main_v37 (ix2 k j) = ix2 j k :=
  funext fun a => Fin.ext (by match a with | ⟨0, _⟩ => rfl | ⟨1, _⟩ => rfl)
theorem lidx_v38_ix2 (i j : Fin 8192) (k : Fin 64) : lidx_main_v38 (ix2 i j) k = ix2 i k :=
  funext fun a => Fin.ext (by match a with | ⟨0, _⟩ => rfl | ⟨1, _⟩ => rfl)
theorem ridx_v38_ix2 (i j : Fin 8192) (k : Fin 64) : ridx_main_v38 (ix2 i j) k = ix2 k j :=
  funext fun a => Fin.ext (by match a with | ⟨0, _⟩ => rfl | ⟨1, _⟩ => rfl)

/-- A rank-1 index set is its one coordinate's range. -/
def idxEquiv1 {n : ℕ} : Fin n ≃ (⟨1, ![n]⟩ : Shape).Idx where
  toFun a := ix1 a
  invFun j := j 0
  left_inv _ := rfl
  right_inv j := (eq_ix1 j).symm

/-- The normalised user table: every row of the gathered user table divided by its clamped length. -/
theorem un_eq (i : Fin 8192) (k : Fin 64) :
    unTab x0 x3 (ix2 i k) = KSpec.nrmRow (fun k' => uTab x0 x3 (ix2 i k')) k := by
  show val_main_v11 (F := Ideal) x0 x3 (ix2 i k) = _
  rw [val_main_v11_apply, val_main_v10_apply, idx_v10_ix2, val_main_v9_apply, val_main_v7_apply, val_main_v8_apply,
    val_main_cst_apply, val_main_call0_v2_apply, idx_call0_v2_ix2, val_main_call0_v1_apply, val_main_call0_cst_apply]
  simp only [val_main_call0_v0_apply, idx_call0_v1_ix1, Ideal.hostDivf_def, Ideal.hostUnary_sqrt_def, Ideal.maximumf_def,
    Ideal.mulf_def, Ideal.ofBits_def, Ideal.ofBits_zero_f32, zero_add, KSpec.nrmRow, KSpec.eps]

/-- The normalised item table. -/
theorem pn_eq (i : Fin 8192) (k : Fin 64) :
    pnTab x1 x4 (ix2 i k) = KSpec.nrmRow (fun k' => pTab x1 x4 (ix2 i k')) k := by
  show val_main_v23 (F := Ideal) x1 x4 (ix2 i k) = _
  rw [val_main_v23_apply, val_main_v22_apply, idx_v22_ix2, val_main_v21_apply, val_main_v19_apply, val_main_v20_apply,
    val_main_cst_3_apply, val_main_call1_v2_apply, idx_call1_v2_ix2, val_main_call1_v1_apply, val_main_call1_cst_apply]
  simp only [val_main_call1_v0_apply, idx_call1_v1_ix1, Ideal.hostDivf_def, Ideal.hostUnary_sqrt_def, Ideal.maximumf_def,
    Ideal.mulf_def, Ideal.ofBits_def, Ideal.ofBits_zero_f32, zero_add, KSpec.nrmRow, KSpec.eps]

/-- The first sum. -/
theorem up_eq (j : S_.Idx) :
    val_main_v35 (F := Ideal) x0 x1 x3 x4 j
      = KSpec.upTotal (KSpec.rows (n := 8192) (unTab x0 x3)) (KSpec.rows (n := 8192) (pnTab x1 x4)) := by
  rw [val_main_v35_apply, val_main_cst_7_apply, Ideal.ofBits_def, Ideal.ofBits_zero_f32, zero_add,
    ← Equiv.sum_comp idxEquiv1 (fun j => val_main_v34 (F := Ideal) x0 x1 x3 x4 j)]
  simp only [KSpec.upTotal]
  refine Finset.sum_congr rfl fun i _ => ?_
  show val_main_v34 (F := Ideal) x0 x1 x3 x4 (ix1 i) = _
  rw [val_main_v34_apply, val_main_v33_apply, val_main_v28_apply, val_main_v32_apply, val_main_v27_apply,
    val_main_v31_apply, val_main_v29_apply, val_main_v26_apply, val_main_v30_apply, val_main_cst_5_apply,
    val_main_cst_6_apply, val_main_v25_apply, val_main_cst_4_apply]
  simp only [val_main_v24_apply, idx_v25_ix1, Ideal.hostDivf_def, Ideal.hostUnary_exp_def, Ideal.hostUnary_log_def,
    Ideal.mulf_def, Ideal.addf_def, Ideal.ofBits_def, Ideal.ofBits_zero_f32, zero_add, KSpec.hUp, KSpec.dotRow,
    KSpec.tmp, KSpec.rows]

/-- The second sum. -/
theorem dn_eq (j : S_.Idx) :
    val_main_v47 (F := Ideal) x0 x1 x3 x4 j
      = KSpec.dnTotal (KSpec.rows (n := 8192) (unTab x0 x3)) (KSpec.rows (n := 8192) (pnTab x1 x4)) := by
  rw [val_main_v47_apply, val_main_cst_11_apply, Ideal.ofBits_def, Ideal.ofBits_zero_f32, zero_add, sum_idx2]
  simp only [KSpec.dnTotal]
  refine Finset.sum_congr rfl fun i _ => Finset.sum_congr rfl fun j' _ => ?_
  rw [val_main_v46_apply, val_main_v41_apply, val_main_v45_apply, val_main_v40_apply, val_main_v44_apply,
    val_main_v42_apply, val_main_v39_apply, val_main_v43_apply, val_main_cst_9_apply, val_main_cst_10_apply,
    val_main_v38_apply]
  simp only [val_main_v37_apply, lidx_v38_ix2, ridx_v38_ix2, idx_v37_ix2, Ideal.hostDivf_def, Ideal.hostUnary_exp_def,
    Ideal.mulf_def, Ideal.addf_def, Ideal.ofBits_def, KSpec.gDn, KSpec.dotRow, KSpec.tmp, KSpec.rows]

end Cert.ReferenceIdeal.RefValue

end
-- ==== Proof.Claims.lean ====
/-
  The two programs compute one function.

  On the kernel's side: the first region reads the two gathered tables and leaves the two normalised tables and the
  first sum; the second region reads the two normalised tables and leaves the second sum; the host tail turns the two
  sums and the two counts of distinct indices into the result. On the reference's side the stages say the same of the
  same gathered tables. Both results are therefore the tail's closed form at the same two sums — the sum over the rows,
  and the sum over all pairs of rows, of the specification's summands at the normalised gathered tables — and the same
  two index vectors. The kernel adds its partial sums tile by tile; over the extended reals a finite sum may be
  regrouped freely, so no finiteness of the inputs is used.
-/
import proofs.«113842_j81071802679459_1_alg».proof.Defs
import proofs.«113842_j81071802679459_1_alg».proof.Proof.Gen.Kernel.Frame
import proofs.«113842_j81071802679459_1_alg».proof.Proof.Gen.KernelIdeal.Frame
import proofs.«113842_j81071802679459_1_alg».proof.Proof.Gen.Pre_finite_inputs
import proofs.«113842_j81071802679459_1_alg».proof.Proof.KRun
import proofs.«113842_j81071802679459_1_alg».proof.Proof.KTail
import proofs.«113842_j81071802679459_1_alg».proof.Proof.R0Value
import proofs.«113842_j81071802679459_1_alg».proof.Proof.R1Value
import proofs.«113842_j81071802679459_1_alg».proof.Proof.RefFold
import proofs.«113842_j81071802679459_1_alg».proof.Proof.RefValue
import proofs.«113842_j81071802679459_1_alg».proof.Proof.Spec
import Idealize.ShloMosaic.Lib.ValueIdx

set_option maxRecDepth 16384

noncomputable section

namespace Cert.Proof.Claims

open Idealize.ShloMosaic Idealize.ShloMosaic.TcCoe Idealize.SL.Sem Idealize.ShloMosaic.ValueIdx

/-! ## The common closed form -/

/-- The two sums, of the two index vectors and the two embedding tables. -/
def upOf (a0 a1 : IVec Cert.KernelIdeal.S8192 32) (t3 t4 : FVec Ideal Cert.KernelIdeal.S100000x64 .f32) : EReal :=
  KSpec.upTotal (KSpec.nrm (KSpec.rows (n := 8192) (Cert.KernelIdeal.KTail.gatherRows (F := Ideal) t3 a0)))
    (KSpec.nrm (KSpec.rows (n := 8192) (Cert.KernelIdeal.KTail.gatherRows (F := Ideal) t4 a1)))

def dnOf (a0 a1 : IVec Cert.KernelIdeal.S8192 32) (t3 t4 : FVec Ideal Cert.KernelIdeal.S100000x64 .f32) : EReal :=
  KSpec.dnTotal (KSpec.nrm (KSpec.rows (n := 8192) (Cert.KernelIdeal.KTail.gatherRows (F := Ideal) t3 a0)))
    (KSpec.nrm (KSpec.rows (n := 8192) (Cert.KernelIdeal.KTail.gatherRows (F := Ideal) t4 a1)))

/-- The result as a function of the arguments. -/
def resultOf (a0 a1 : IVec Cert.KernelIdeal.S8192 32) (t3 t4 : FVec Ideal Cert.KernelIdeal.S100000x64 .f32) :
    FVec Ideal Cert.KernelIdeal.S2 .f32 :=
  Cert.KernelIdeal.KTail.tail (F := Ideal) (fun _ => upOf a0 a1 t3 t4) (fun _ => dnOf a0 a1 t3 t4) a0 a1

/-! ## The kernel -/

section Kernel

open Cert.KernelIdeal Cert.KernelIdeal.Gen Cert.KernelIdeal.KTail

variable (m : (ℓ : Loc nD τ sig) → Buf (Elt Ideal) ℓ) (ρ : Dev nD → PrngReg)

/-- The second region's first operand, as rows, is the gathered user table with every row normalised. -/
theorem rows_un (c : Dev nD) :
    KSpec.rows (n := 8192) (R1.uArr (V2 m ρ) c)
      = KSpec.nrm (KSpec.rows (n := 8192) (gatherRows (F := Ideal) (m ((c : Thread nD τ).loc main_arg3)) (m ((c : Thread nD τ).loc main_arg0)))) := by
  funext i k
  show V2 m ρ c main_v14_0 (ix2 i k) = _
  rw [V2_un m ρ c]
  refine (R0.un_eq (V1 m ρ) c i k).trans ?_
  show KSpec.nrmRow (fun k' => V1 m ρ c main_v6 (ix2 i k')) k = _
  rw [V1_u m ρ c]
  rfl

theorem rows_pn (c : Dev nD) :
    KSpec.rows (n := 8192) (R1.pArr (V2 m ρ) c)
      = KSpec.nrm (KSpec.rows (n := 8192) (gatherRows (F := Ideal) (m ((c : Thread nD τ).loc main_arg4)) (m ((c : Thread nD τ).loc main_arg1)))) := by
  funext i k
  show V2 m ρ c main_v14_1 (ix2 i k) = _
  rw [V2_pn m ρ c]
  refine (R0.pn_eq (V1 m ρ) c i k).trans ?_
  show KSpec.nrmRow (fun k' => V1 m ρ c main_v13 (ix2 i k')) k = _
  rw [V1_p m ρ c]
  rfl

/-- The kernel's result buffer after the run is the common closed form of the arguments. -/
theorem kernel_value (c : Dev nD) :
    W8 m ρ c (Proc.devRef .tc main_v55)
      = resultOf (m ((c : Thread nD τ).loc main_arg0)) (m ((c : Thread nD τ).loc main_arg1))
          (m ((c : Thread nD τ).loc main_arg3)) (m ((c : Thread nD τ).loc main_arg4)) := by
  have h1 : (dat0 (V1 m ρ) c).arrAt 4 cfg0.N
      = fun _ => upOf (m ((c : Thread nD τ).loc main_arg0)) (m ((c : Thread nD τ).loc main_arg1))
          (m ((c : Thread nD τ).loc main_arg3)) (m ((c : Thread nD τ).loc main_arg4)) := by
    funext j
    refine (R0.up_eq (V1 m ρ) c j).trans ?_
    show KSpec.upTotal (KSpec.nrm (KSpec.rows (n := 8192) (V1 m ρ c main_v6))) (KSpec.nrm (KSpec.rows (n := 8192) (V1 m ρ c main_v13))) = _
    rw [V1_u m ρ c, V1_p m ρ c]
    rfl
  have h2 : (dat1 (V2 m ρ) c).arrAt 2 cfg1.N
      = fun _ => dnOf (m ((c : Thread nD τ).loc main_arg0)) (m ((c : Thread nD τ).loc main_arg1))
          (m ((c : Thread nD τ).loc main_arg3)) (m ((c : Thread nD τ).loc main_arg4)) := by
    funext j
    refine (R1.dn_eq (V2 m ρ) c j).trans ?_
    rw [rows_un m ρ c, rows_pn m ρ c]
    rfl
  rw [W8_result m ρ c, W3_up m ρ c, W3_dn m ρ c, h1, h2]
  rfl

end Kernel

/-! ## The reference -/

section Reference

open Cert.ReferenceIdeal Cert.ReferenceIdeal.ReadP Cert.ReferenceIdeal.RefValue

variable (x0 x1 : (⟨S8192, .i32⟩ : BufTy).Contents (Elt Ideal)) (x3 x4 : (⟨S100000x64, .f32⟩ : BufTy).Contents (Elt Ideal))

/-- The reference's gathers are the kernel's: the same operations on the same operands. -/
theorem uTab_eq : uTab x0 x3 = Cert.KernelIdeal.KTail.gatherRows (F := Ideal) x3 x0 := rfl

theorem pTab_eq : pTab x1 x4 = Cert.KernelIdeal.KTail.gatherRows (F := Ideal) x4 x1 := rfl

theorem rows_unTab :
    KSpec.rows (n := 8192) (unTab x0 x3) = KSpec.nrm (KSpec.rows (n := 8192) (Cert.KernelIdeal.KTail.gatherRows (F := Ideal) x3 x0)) := by
  funext i k
  refine (un_eq x0 x3 i k).trans ?_
  rw [uTab_eq x0 x3]
  rfl

theorem rows_pnTab :
    KSpec.rows (n := 8192) (pnTab x1 x4) = KSpec.nrm (KSpec.rows (n := 8192) (Cert.KernelIdeal.KTail.gatherRows (F := Ideal) x4 x1)) := by
  funext i k
  refine (pn_eq x1 x4 i k).trans ?_
  rw [pTab_eq x1 x4]
  rfl

/-- The reference's last stage is the common closed form of the arguments. -/
theorem ref_value : val_main_v84 (F := Ideal) x0 x1 x3 x4 = resultOf x0 x1 x3 x4 := by
  have h35 : val_main_v35 (F := Ideal) x0 x1 x3 x4 = fun _ => upOf x0 x1 x3 x4 := by
    funext j
    refine (up_eq x0 x1 x3 x4 j).trans ?_
    rw [rows_unTab x0 x3, rows_pnTab x1 x4]
    rfl
  have h47 : val_main_v47 (F := Ideal) x0 x1 x3 x4 = fun _ => dnOf x0 x1 x3 x4 := by
    funext j
    refine (dn_eq x0 x1 x3 x4 j).trans ?_
    rw [rows_unTab x0 x3, rows_pnTab x1 x4]
    rfl
  unfold val_main_v84 val_main_v82 val_main_v83 val_main_v81 val_main_v80 val_main_v79 val_main_v36
  rw [h35, h47]
  rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefFold.run (F := Ideal) m ρ)

theorem preserves : Cert.preserves_Kernel_KernelIdeal := trivial

/-- Both runs end, the kernel's result at the closed form of its arguments and the reference's at the closed form of
    arguments that agree with them. -/
theorem algebraic : Cert.algebraic_KernelIdeal_ReferenceIdeal := by
  intro m ρ m' ρ' _ hagree
  refine ⟨fun c => Cert.KernelIdeal.Gen.W8 m ρ c (Proc.devRef .tc Cert.KernelIdeal.main_v55),
    Cert.KernelIdeal.KRun.run_named (F := Ideal) m ρ, ?_⟩
  refine (θ_run Cert.ReferenceIdeal.defs _ _).mono (fun _ h c => ⟨(h c).1.trans ?_, (h c).2⟩)
    (Cert.ReferenceIdeal.RefFold.run (F := Ideal) m' ρ')
  rw [(hagree c).1, (hagree c).2.1, (hagree c).2.2.2.1, (hagree c).2.2.2.2]
  exact (ref_value _ _ _ _).trans (kernel_value m ρ c).symm

end Cert.Proof.Claims

end
-- ==== Proof.lean ====
/- The proof of `Cert.Claim`: the three frames, the idealization (the ideal pass rewrote nothing) and the equality of
   the two idealized programs' results over the extended reals. The kernel's frames are the generated ones; the reference's
   is its run; the value claim is Proof/Claims.lean: both results are one closed form of the arguments. -/
import proofs.«113842_j81071802679459_1_alg».proof.Defs
import proofs.«113842_j81071802679459_1_alg».proof.Proof.Gen.Kernel
import proofs.«113842_j81071802679459_1_alg».proof.Proof.Gen.Kernel.Skeleton
import proofs.«113842_j81071802679459_1_alg».proof.Proof.Gen.Kernel.Launch
import proofs.«113842_j81071802679459_1_alg».proof.Proof.Gen.Kernel.Points
import proofs.«113842_j81071802679459_1_alg».proof.Proof.Gen.Kernel.Frame
import proofs.«113842_j81071802679459_1_alg».proof.Proof.Gen.KernelIdeal
import proofs.«113842_j81071802679459_1_alg».proof.Proof.Gen.KernelIdeal.Skeleton
import proofs.«113842_j81071802679459_1_alg».proof.Proof.Gen.KernelIdeal.Launch
import proofs.«113842_j81071802679459_1_alg».proof.Proof.Gen.KernelIdeal.Points
import proofs.«113842_j81071802679459_1_alg».proof.Proof.Gen.KernelIdeal.Frame
import proofs.«113842_j81071802679459_1_alg».proof.Proof.Gen.ReferenceIdeal
import proofs.«113842_j81071802679459_1_alg».proof.Proof.Gen.Pre_finite_inputs
import proofs.«113842_j81071802679459_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
